-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x128x128x16 : Shape := ⟨4, ![512, 128, 128, 16]⟩
abbrev S130x128 : Shape := ⟨2, ![130, 128]⟩
abbrev S_ : Shape := ⟨0, ![]⟩

class Facts : Prop where
  bcast_S_S512x128x128x16 : S_.BroadcastsInDim S512x128x128x16 (![] : Fin 0 → Fin S512x128x128x16.rank)
  reducesTo_S512x128x128x16_S_d0_1_2_3 : S512x128x128x16.ReducesTo [0, 1, 2, 3] S_
  h_S_ : 0 < S_.numel
  bcast_S_S130x128 : S_.BroadcastsInDim S130x128 (![] : Fin 0 → Fin S130x128.rank)
  reducesTo_S130x128_S_d0_1 : S130x128.ReducesTo [0, 1] S_

variable [Facts]

def fn {F : FTy → Type} [FloatOps F] (main_arg0 : FVec F S512x128x128x16 .f32) (main_arg1 : FVec F S130x128 .f32) : IVec S_ 1 :=
  let main_v0 : FVec F S512x128x128x16 .f32 := Host.absf main_arg0
  let main_cst : FVec F S_ .f32 := constant S_ .f32 0x7F800000#32
  let main_v1 : FVec F S512x128x128x16 .f32 := broadcastInDim S512x128x128x16 ![] bcast_S_S512x128x128x16 main_cst
  let main_v2 : IVec S512x128x128x16 1 := cmpf .olt main_v0 main_v1
  let main_c : IVec S_ 1 := constantI S_ 1 1#1
  let main_v3 : IVec S_ 1 := (fun x v => Host.reduce IntOp.andi x v reducesTo_S512x128x128x16_S_d0_1_2_3 h_S_) main_v2 main_c
  let main_v4 : FVec F S130x128 .f32 := Host.absf main_arg1
  let main_cst_0 : FVec F S_ .f32 := constant S_ .f32 0x7F800000#32
  let main_v5 : FVec F S130x128 .f32 := broadcastInDim S130x128 ![] bcast_S_S130x128 main_cst_0
  let main_v6 : IVec S130x128 1 := cmpf .olt main_v4 main_v5
  let main_c_1 : IVec S_ 1 := constantI S_ 1 1#1
  let main_v7 : IVec S_ 1 := (fun x v => Host.reduce IntOp.andi x v reducesTo_S130x128_S_d0_1 h_S_) main_v6 main_c_1
  let main_v8 : IVec S_ 1 := andi main_v3 main_v7
  main_v8
-- ==== Kernel.lean ====
abbrev S512x128x128x16 : Shape := ⟨4, ![512, 128, 128, 16]⟩
abbrev S130x128 : Shape := ⟨2, ![130, 128]⟩
abbrev S128x128 : Shape := ⟨2, ![128, 128]⟩
abbrev S2x128x128x16 : Shape := ⟨4, ![2, 128, 128, 16]⟩
abbrev S2x128x128 : Shape := ⟨3, ![2, 128, 128]⟩
abbrev S130x130 : Shape := ⟨2, ![130, 130]⟩
abbrev S128x130 : Shape := ⟨2, ![128, 130]⟩
abbrev S1x130x130x1 : Shape := ⟨4, ![1, 130, 130, 1]⟩

abbrev nBuf : Space → Nat
  | .hbm => 5
  | .vmem => 7
  | .smem => 0
  | _ => 0

abbrev bufTy : (tb : Table) → Fin (tcTables nBuf tb) → BufTy
  | .hbm, ⟨0, _⟩ => ⟨S512x128x128x16, .f32⟩
  | .hbm, ⟨1, _⟩ => ⟨S130x128, .f32⟩
  | .hbm, ⟨2, _⟩ => ⟨S128x128, .f32⟩
  | .hbm, ⟨3, _⟩ => ⟨S130x130, .f32⟩
  | .hbm, ⟨4, _⟩ => ⟨S1x130x130x1, .f32⟩
  | .local _ .vmem, ⟨0, _⟩ => ⟨S2x128x128x16, .f32⟩
  | .local _ .vmem, ⟨1, _⟩ => ⟨S2x128x128x16, .f32⟩
  | .local _ .vmem, ⟨2, _⟩ => ⟨S128x128, .f32⟩
  | .local _ .vmem, ⟨3, _⟩ => ⟨S128x128, .f32⟩
  | .local _ .vmem, ⟨4, _⟩ => ⟨S130x128, .f32⟩
  | .local _ .vmem, ⟨5, _⟩ => ⟨S128x128, .f32⟩
  | .local _ .vmem, ⟨6, _⟩ => ⟨S130x130, .f32⟩
  | _, _ => ⟨S512x128x128x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc0_sem0_0 : DmaSem sig := 0
abbrev cc0_sem0_1 : DmaSem sig := 1
abbrev cc0_sem1_0 : DmaSem sig := 2
abbrev cc1_sem0_0 : DmaSem sig := 3
abbrev cc1_sem1_0 : DmaSem sig := 4
abbrev cc1_sem2_0 : DmaSem sig := 5

abbrev nD : Nat := 1
abbrev τ : Topo := Topo.v7x

variable {F : FTy → Type} [FloatOps F]

abbrev grid0 : Pipeline.Grid := ⟨1, ![256], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x128x128x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S130x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S130x130 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

class Facts₀ : Prop where
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S2x128x128x16_S2x128x128x16_0_0_0_0 : ∀ a, (![0, 0, 0, 0] : Fin 4 → Nat) a + S2x128x128x16.size a ≤ S2x128x128x16.size a
  h_S2x128x128x16 : 0 < S2x128x128x16.numel
  reduces_S2x128x128x16_S2x128x128 : S2x128x128x16.Reduces [3] S2x128x128
  reduces_S2x128x128_S128x128 : S2x128x128.Reduces [0] S128x128
  inb_S130x128_S130x128_0_0 : ∀ a, (![0, 0] : Fin 2 → Nat) a + S130x128.size a ≤ S130x128.size a
  h_S130x128 : 0 < S130x128.numel
  transposes_S130x128_p1_0_S128x130 : S130x128.Transposes [1, 0] S128x130
  inb_S130x130_S130x130_0_0 : ∀ a, (![0, 0] : Fin 2 → Nat) a + S130x130.size a ≤ S130x130.size a
  h_S130x130 : 0 < S130x130.numel
  bcast_S130x130_S1x130x130x1_1_2 : S130x130.BroadcastsInDim S1x130x130x1 (![1, 2] : Fin 2 → Fin S1x130x130x1.rank)
  dot_S130x128_S128x128_S130x128_1_0_0_1_n_n_wf : DotDims.WF S130x128 S128x128 S130x128 [1] [0] [0] [1] [] []
  dot_S130x128_S128x130_S130x130_1_0_0_1_n_n_wf : DotDims.WF S130x128 S128x130 S130x130 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x128x128x16.size a ≤ S512x128x128x16.size a
  hwx0_0 : ∀ i : grid0.Coords, EltTy.bits .f32 = 32 ∨ (Rect.block (s := S512x128x128x16) S2x128x128x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S130x128.size a ≤ S130x128.size a
  hwx1_0 : ∀ i : grid1.Coords, EltTy.bits .f32 = 32 ∨ (Rect.block (s := S130x128) S130x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S130x130.size a ≤ S130x130.size a
  hwx1_2 : ∀ i : grid1.Coords, EltTy.bits .f32 = 32 ∨ (Rect.block (s := S130x130) S130x130.size (cc1_transform_2 i) (hinb1_2 i)).WholeWords (EltTy.packing .f32)

variable [Facts₀]

def dot_S130x128_S128x128_S130x128_1_0_0_1_n_n : DotDims S130x128 S128x128 S130x128 where
  lhsContracting := [1]
  rhsContracting := [0]
  lhsNonContracting := [0]
  rhsNonContracting := [1]
  lhsBatch := []
  rhsBatch := []
  wf := dot_S130x128_S128x128_S130x128_1_0_0_1_n_n_wf
def dot_S130x128_S128x130_S130x130_1_0_0_1_n_n : DotDims S130x128 S128x130 S130x130 where
  lhsContracting := [1]
  rhsContracting := [0]
  lhsNonContracting := [0]
  rhsNonContracting := [1]
  lhsBatch := []
  rhsBatch := []
  wf := dot_S130x128_S128x130_S130x130_1_0_0_1_n_n_wf

abbrev win0_0 : Pipeline.Window sig grid0 :=
  Pipeline.Window.ofSpec (Memref.whole main_arg0) S2x128x128x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S130x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v0) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S130x130.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S512x128x128x16 : Shape := ⟨4, ![512, 128, 128, 16]⟩
abbrev S130x128 : Shape := ⟨2, ![130, 128]⟩
abbrev S_ : Shape := ⟨0, ![]⟩
abbrev S128x128 : Shape := ⟨2, ![128, 128]⟩
abbrev S128x130 : Shape := ⟨2, ![128, 130]⟩
abbrev S130x130 : Shape := ⟨2, ![130, 130]⟩
abbrev S1x130x130x1 : Shape := ⟨4, ![1, 130, 130, 1]⟩

abbrev nBuf : Space → Nat
  | .hbm => 8
  | .vmem => 0
  | .smem => 0
  | _ => 0

abbrev bufTy : (tb : Table) → Fin (tcTables nBuf tb) → BufTy
  | .hbm, ⟨0, _⟩ => ⟨S512x128x128x16, .f32⟩
  | .hbm, ⟨1, _⟩ => ⟨S130x128, .f32⟩
  | .hbm, ⟨2, _⟩ => ⟨S_, .f32⟩
  | .hbm, ⟨3, _⟩ => ⟨S128x128, .f32⟩
  | .hbm, ⟨4, _⟩ => ⟨S130x128, .f32⟩
  | .hbm, ⟨5, _⟩ => ⟨S128x130, .f32⟩
  | .hbm, ⟨6, _⟩ => ⟨S130x130, .f32⟩
  | .hbm, ⟨7, _⟩ => ⟨S1x130x130x1, .f32⟩
  | _, _ => ⟨S512x128x128x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  reducesTo_S512x128x128x16_S128x128_d0_3 : S512x128x128x16.ReducesTo [0, 3] S128x128
  h_S_ : 0 < S_.numel
  transposes_S130x128_S128x130_1_0 : S130x128.Transposes [1, 0] S128x130
  bcast_S130x130_S1x130x130x1_1_2 : S130x130.BroadcastsInDim S1x130x130x1 (![1, 2] : Fin 2 → Fin S1x130x130x1.rank)
  dot_S130x128_S128x128_S130x128_1_0_0_1_n_n_wf : DotDims.WF S130x128 S128x128 S130x128 [1] [0] [0] [1] [] []
  dot_S130x128_S128x130_S130x130_1_0_0_1_n_n_wf : DotDims.WF S130x128 S128x130 S130x130 [1] [0] [0] [1] [] []

variable [Facts₀]

def dot_S130x128_S128x128_S130x128_1_0_0_1_n_n : DotDims S130x128 S128x128 S130x128 where
  lhsContracting := [1]
  rhsContracting := [0]
  lhsNonContracting := [0]
  rhsNonContracting := [1]
  lhsBatch := []
  rhsBatch := []
  wf := dot_S130x128_S128x128_S130x128_1_0_0_1_n_n_wf
def dot_S130x128_S128x130_S130x130_1_0_0_1_n_n : DotDims S130x128 S128x130 S130x130 where
  lhsContracting := [1]
  rhsContracting := [0]
  lhsNonContracting := [0]
  rhsNonContracting := [1]
  lhsBatch := []
  rhsBatch := []
  wf := dot_S130x128_S128x130_S130x130_1_0_0_1_n_n_wf

class Facts : Prop extends Facts₀ where

variable [Facts]
-- ==== Proof.Kernel.Reg0.lean ====
/-
  The first kernel region, the running sum. Its grid has 256 points; point `t` loads the block of two batch
  entries `x[2t .. 2t+1, :, :, :]`, sums it over the channel axis and then over the batch axis, and adds the
  128×128 result to a scratch accumulator that the first point zeroes; after every point the accumulator is
  copied to the output window's buffer, which is written back to the array once, after the last point.
  Here: what the accumulator holds after point `n` (`accAt`: a recursion on the point), the body's triple in its
  two control cases (the first point, every later point), and the region's proof data with the body obligation.
  Everything is stated for any float instance `F` and any contents `V` of the buffers at the region's entry.
-/
import proofs.«147865_j20615843021260_1_alg».proof.Proof.Gen.Kernel.Launch
import proofs.«147865_j20615843021260_1_alg».proof.Proof.Gen.Kernel.Skeleton
import proofs.«147865_j20615843021260_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-! ## The body's rectangles: each access is the whole buffer -/

abbrev rA : Rect S128x128 := Rect.unit (s := S128x128) ![0, 0] S128x128.size inb_S128x128_S128x128_0_0
abbrev rX : Rect S2x128x128x16 := Rect.unit (s := S2x128x128x16) ![0, 0, 0, 0] S2x128x128x16.size inb_S2x128x128x16_S2x128x128x16_0_0_0_0

theorem hzA : (![0, 0] : Fin 2 → Nat) = fun _ => 0 := by
  funext a; fin_cases a <;> rfl
theorem hzX : (![0, 0, 0, 0] : Fin 4 → Nat) = fun _ => 0 := by
  funext a; fin_cases a <;> rfl

/-- One whole-buffer store, last in a list of stores, covers every index. -/
theorem coverA (p : Vec F S128x128 .f32) (L : List (View.Piece (Elt F) S128x128 .f32)) (y : S128x128.Idx) :
    ∃ pc ∈ ((⟨rA, p⟩ : View.Piece (Elt F) S128x128 .f32) :: L), y ∈ pc.1.set :=
  ⟨_, List.mem_cons_self, View.mem_set_unit_zero hzA inb_S128x128_S128x128_0_0 y⟩

/-! ## The input window's block at a point -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current buffer holds its block at every point, for any proof data over the entry contents
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The branch: the accumulator is zeroed at the first point only -/

/-- The condition of the body's one `scf.if`, from the grid coordinate. -/
abbrev firstPt (i : grid0.Coords) : Prop :=
  (Scalar.cmpi .ne (Scalar.extui (Scalar.cmpi .eq (BitVec.ofNat 32 (i 0).val) 0#32)) 0#32) = 1#1

/-- It holds at point 0 and nowhere else. -/
theorem hfirst : ∀ t : Fin cfg0.N, firstPt (grid0.coords t) ↔ t.val = 0 :=
  (by decide +kernel : ∀ t : Fin grid0.N, firstPt (grid0.coords t) ↔ t.val = 0)

/-! ## The accumulator after each point -/

/-- The scratch accumulator (and the output window's buffer) after the body at point `n`: the zero block plus
    the block sum of point 0, then each later point's block sum added to what the point before left. -/
def accAt (c : Dev nD) : (n : ℕ) → n < cfg0.N → Vec F S128x128 .f32
  | 0, h => k0_pay2 (iblk0 V c 0 ⟨0, h⟩) (k0_pay1 (F := F))
  | n + 1, h => k0_pay2 (iblk0 V c 0 ⟨n + 1, h⟩) (accAt c n (Nat.lt_of_succ_lt h))

theorem accAt_zero (c : Dev nD) (t : Fin cfg0.N) (h : t.val = 0) :
    accAt V c t.val t.isLt = k0_pay2 (iblk0 V c 0 t) (k0_pay1 (F := F)) := by
  obtain ⟨n, hn⟩ := t
  cases n with
  | zero => rfl
  | succ n => exact absurd h (Nat.succ_ne_zero n)

theorem accAt_pos (c : Dev nD) (t : Fin cfg0.N) (h : t.val ≠ 0) :
    accAt V c t.val t.isLt = k0_pay2 (iblk0 V c 0 t) (accAt V c (t.val - 1) (Nat.lt_of_le_of_lt (Nat.sub_le _ _) t.isLt)) := by
  obtain ⟨n, hn⟩ := t
  cases n with
  | zero => exact absurd rfl h
  | succ n => rfl

/-! ## The body's triple, case by case -/

set_option maxHeartbeats 1000000 in
/-- The first point: whatever the scratch and the output buffer held, both end at the zero block plus the
    input block's sum; the input buffer is as it was. -/
theorem sound_first (c : Dev nD) (E : Set ℕ) (i : grid0.Coords) (hc : firstPt i)
    (arg1 : Memref sig .tc .vmem S2x128x128x16 .f32) (harg1 : arg1.IsWhole)
    (arg2 : Memref sig .tc .vmem S128x128 .f32) (harg2 : arg2.IsWhole)
    (arg3 : Memref sig .tc .vmem S128x128 .f32) (harg3 : arg3.IsWhole)
    (x0 : Vec F S2x128x128x16 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (k0_pay2 x0 (k0_pay1 (F := F)))
            ∗ owns (c : Thread nD τ) arg3 fullShare (k0_pay2 x0 (k0_pay1 (F := F)))) -∗ K ⟨⟩))
      ⊢ wp frame (wpE (defs₀ (F := F)) Variants.none c none) E (cc0__reduce_kernel i arg1 harg1 arg2 harg2 arg3 harg3) K := by
  simp only [cc0__reduce_kernel_eq_skeleton]; unfold cc0__reduce_kernel_skel
  unfold owns
  iintro ⟨⟨%f0, %hf0, H0⟩, ⟨%d1, %f1, -, H1⟩, ⟨%d2, %f2, -, H2⟩, Hk⟩
  subst hf0
  sl_exec (disch := exact hc)
  sl_step
  iapply Hk
  isplitl [H0]
  · iexists f0; isplitr; · ipureintro; rfl
    iexact H0
  isplitl [H1]
  · iexists _; isplitr
    swap; · iexact H1
    ipureintro
    sl_unfold_words
    rw [View.read_writes_eq_canon _ _ _ (coverA _ _), View.canon_unit_zero hzA,
      View.readCov_eq_canon_ld _ _ _ (coverA _ _), View.canon_cons_unit_zero hzA, View.ld_unit_zero hzA]
    simp only [View.readAt_eq_ld, View.ld_unit_zero (S := S2x128x128x16) hzX, View.readCov_unit_zero (S := S128x128) _ hzA]
  · iexists _; isplitr
    swap; · iexact H2
    ipureintro
    sl_unfold_words
    rw [View.read_writes_eq_canon _ _ _ (coverA _ _), View.canon_cons_unit_zero hzA]
    simp only [View.readAt_eq_ld, View.ld_unit_zero (S := S2x128x128x16) hzX, View.readCov_unit_zero (S := S128x128) _ hzA]

set_option maxHeartbeats 1000000 in
/-- A later point: the scratch holds `a`, what the point before left; it and the output buffer end at `a` plus
    the input block's sum; the input buffer is as it was. -/
theorem sound_later (c : Dev nD) (E : Set ℕ) (i : grid0.Coords) (hc : ¬ firstPt i)
    (arg1 : Memref sig .tc .vmem S2x128x128x16 .f32) (harg1 : arg1.IsWhole)
    (arg2 : Memref sig .tc .vmem S128x128 .f32) (harg2 : arg2.IsWhole)
    (arg3 : Memref sig .tc .vmem S128x128 .f32) (harg3 : arg3.IsWhole)
    (x0 : Vec F S2x128x128x16 .f32) (a : Vec F S128x128 .f32) (K : PUnit → sProp 𝕄) :
    iprop(owns (c : Thread nD τ) arg1 fullShare x0 ∗ (∃ d, owns (c : Thread nD τ) arg2 fullShare d) ∗ owns (c : Thread nD τ) arg3 fullShare a
        ∗ (iprop(owns (c : Thread nD τ) arg1 fullShare x0 ∗ owns (c : Thread nD τ) arg2 fullShare (k0_pay2 x0 a)
            ∗ owns (c : Thread nD τ) arg3 fullShare (k0_pay2 x0 a)) -∗ K ⟨⟩))
      ⊢ wp frame (wpE (defs₀ (F := F)) Variants.none c none) E (cc0__reduce_kernel i arg1 harg1 arg2 harg2 arg3 harg3) K := by
  simp only [cc0__reduce_kernel_eq_skeleton]; unfold cc0__reduce_kernel_skel
  unfold owns
  iintro ⟨⟨%f0, %hf0, H0⟩, ⟨%d1, %f1, -, H1⟩, ⟨%f2, %hf2, H2⟩, Hk⟩
  subst hf0; subst hf2
  sl_exec (disch := exact hc)
  sl_step
  iapply Hk
  isplitl [H0]
  · iexists f0; isplitr; · ipureintro; rfl
    iexact H0
  isplitl [H1]
  · iexists _; isplitr
    swap; · iexact H1
    ipureintro
    sl_unfold_words
    rw [View.read_writes_eq_canon _ _ _ (coverA _ _), View.canon_unit_zero hzA,
      View.readCov_unit_zero _ hzA]
    simp only [View.readAt_eq_ld, View.ld_unit_zero (S := S2x128x128x16) hzX, View.ld_unit_zero (S := S128x128) hzA]
  · iexists _; isplitr
    swap; · iexact H2
    ipureintro
    sl_unfold_words
    rw [View.read_writes_eq_canon _ _ _ (coverA _ _), View.canon_unit_zero hzA]
    simp only [View.readAt_eq_ld, View.ld_unit_zero (S := S2x128x128x16) hzX, View.ld_unit_zero (S := S128x128) hzA]

end Region0

end Cert.Kernel.Hand
end
-- ==== Proof.Kernel.Dat0.lean ====
/-
  The proof data of the first kernel region (the running sum) and its body obligation. Between two points the
  region's invariant holds the scratch accumulator at `accAt` of the point before (at anything before the first
  point), the scoped buffers the region does not use at anything, and the generator register; after the body at
  point `t` the input window's buffer holds its block and the output window's buffer holds `accAt t`.
-/
import proofs.«147865_j20615843021260_1_alg».proof.Proof.Gen.Kernel.Launch
import proofs.«147865_j20615843021260_1_alg».proof.Proof.Gen.Kernel.Skeleton
import proofs.«147865_j20615843021260_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«147865_j20615843021260_1_alg».proof.Proof.Kernel.Reg0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- The scratch accumulator as the pipeline passes it to the body: the whole scoped buffer. -/
abbrev scM : Memref sig .tc .vmem S128x128 .f32 := Memref.whole cc0_scratch0

/-- The scoped buffers this region never touches (the second region's staging buffers), each at some contents. -/
def restS (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f))

/-- What the region is entered with: the scratch at anything, the unused scoped buffers, the generator register. -/
theorem PhiA0_eq (c : Dev nD) :
    (Pipeline.ΦA spec0 c : sProp 𝕄)
      = iprop(iprop((∃ d, owns (c : Thread nD τ) scM fullShare d) ∗ restS (F := F) c) ∗ (∃ r, prngReg c r)) := by
  unfold Pipeline.ΦA restS; rw [scopedRest0_eq]; simp only [scM, owns_whole]; try rfl

/-- The region's invariant before position `n`: before the first point what the region is entered with; afterwards
    the same with the scratch at what the point before left in it. -/
def PhiS (c : Dev nD) : (n : ℕ) → n ≤ cfg0.N → sProp 𝕄
  | 0, _ => Pipeline.ΦA spec0 c
  | n + 1, hn => iprop(iprop(owns (c : Thread nD τ) scM fullShare (accAt V c n hn) ∗ restS (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM fullShare (accAt V c n hn) ∗ restS (F := F) c) ∗ (∃ r, prngReg c r)) := rfl

theorem PhiS_pos (c : Dev nD) (n : ℕ) (h : n ≤ cfg0.N) (hz : n ≠ 0) :
    PhiS V c n h = iprop(iprop(owns (c : Thread nD τ) scM fullShare (accAt V c (n - 1) (by omega)) ∗ restS (F := F) c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => accAt V c t.val t.isLt
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = accAt V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

set_option maxHeartbeats 1000000 in
/-- The body at any point: at the first the scratch is handed over at anything and the first case's triple applies;
    at a later point it is handed over at what the point before left and the other case's triple applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl,
    show (dat0 V c).Φ t.succ = PhiS V c (t.val + 1) t.isLt from rfl, PhiS_succ, after0_0, after0_1]
  by_cases hz : t.val = 0
  · rw [PhiS_castSucc V c t, PhiS_zero V c _ _ hz, PhiA0_eq, accAt_zero V c t hz]
    iintro ⟨⟨⟨HS, HR⟩, Hg⟩, Ho, ⟨%d0, H0⟩, ⟨%d1, H1⟩⟩
    iapply (sound_first c Set.univ (grid0.coords t) ((hfirst t).mpr hz) _ _ _ _ _ _ (iblk0 V c 0 t) _)
    isplitl [H0]; · iexact H0
    isplitl [H1]; · iexists _; iexact H1
    isplitl [HS]; · iexact HS
    iintro ⟨H0, H1, HS⟩
    isplitl [HS HR Hg]
    · isplitl [HS HR]
      · isplitl [HS]; · iexact HS
        iexact HR
      iexact Hg
    isplitl [Ho]; · iexact Ho
    isplitl [H0]; · iexact H0
    iexact H1
  · rw [PhiS_castSucc V c t, PhiS_pos V c _ _ hz, accAt_pos V c t hz]
    iintro ⟨⟨⟨HS, HR⟩, Hg⟩, Ho, ⟨%d0, H0⟩, ⟨%d1, H1⟩⟩
    iapply (sound_later c Set.univ (grid0.coords t) (fun h => hz ((hfirst t).mp h)) _ _ _ _ _ _ (iblk0 V c 0 t) _ _)
    isplitl [H0]; · iexact H0
    isplitl [H1]; · iexists _; iexact H1
    isplitl [HS]; · iexact HS
    iintro ⟨H0, H1, HS⟩
    isplitl [HS HR Hg]
    · isplitl [HS HR]
      · isplitl [HS]; · iexact HS
        iexact HR
      iexact Hg
    isplitl [Ho]; · iexact Ho
    isplitl [H0]; · iexact H0
    iexact H1

theorem body_obligation0 (c : Dev nD) : BodyObligation (dat0 (F := F) V c) (defs₀ (F := F)) Variants.none () Set.univ := fun t => by
  rw [bigSep_W0, bigSep_W0]
  exact sound_body0 V c t

/-- The invariant before the first point is what the region is entered with, -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- and after the last point it gives that back, the accumulator's contents forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 256 := N_0; omega), PhiA0_eq]
  iintro ⟨⟨HS, HR⟩, Hg⟩
  isplitl [HS HR]
  · isplitl [HS]; · iexists _; iexact HS
    iexact HR
  iexact Hg

end Region0

end Cert.Kernel.Hand
end
-- ==== Proof.Kernel.Reg1.lean ====
/-
  The second kernel region, the two matrix products. Its grid has one point: the body loads the 130×128 matrix
  `pre` and the 128×128 matrix the first region produced, forms `(pre · xs) · preᵀ` (each product into a zero
  accumulator) and stores the 130×130 result through the whole output buffer, which is then written back.
  Here: the body's triple, the region's proof data and its body obligation, for any float instance and any
  contents `V` of the buffers at the region's entry.
-/
import proofs.«147865_j20615843021260_1_alg».proof.Proof.Gen.Kernel.Launch
import proofs.«147865_j20615843021260_1_alg».proof.Proof.Gen.Kernel.Skeleton
import proofs.«147865_j20615843021260_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«147865_j20615843021260_1_alg».proof.Proof.Kernel.Reg0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

abbrev rP : Rect S130x128 := Rect.unit (s := S130x128) ![0, 0] S130x128.size inb_S130x128_S130x128_0_0
abbrev rO : Rect S130x130 := Rect.unit (s := S130x130) ![0, 0] S130x130.size inb_S130x130_S130x130_0_0

/-- The one whole-buffer store covers every index of the output block. -/
theorem coverO (p : Vec F S130x130 .f32) (y : S130x130.Idx) :
    ∃ pc ∈ ([⟨rO, p⟩] : List (View.Piece (Elt F) S130x130 .f32)), y ∈ pc.1.set :=
  ⟨_, List.mem_cons_self, View.mem_set_unit_zero hzA inb_S130x130_S130x130_0_0 y⟩

/-- Window `w`'s block at the region's one point, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

set_option maxHeartbeats 1000000 in
/-- The body: the two input buffers are read and left as they were; the output buffer, whatever it held, ends at
    the double product of the two inputs. -/
theorem sound_pad (c : Dev nD) (E : Set ℕ) (i : grid1.Coords)
    (arg1 : Memref sig .tc .vmem S130x128 .f32) (harg1 : arg1.IsWhole)
    (arg2 : Memref sig .tc .vmem S128x128 .f32) (harg2 : arg2.IsWhole)
    (arg3 : Memref sig .tc .vmem S130x130 .f32) (harg3 : arg3.IsWhole)
    (x0 : Vec F S130x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (k1_pay1 x0 x1)) -∗ K ⟨⟩))
      ⊢ wp frame (wpE (defs₀ (F := F)) Variants.none c none) E (cc1__pad_kernel i arg1 harg1 arg2 harg2 arg3 harg3) K := by
  simp only [cc1__pad_kernel_eq_skeleton]; unfold cc1__pad_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  sl_unfold_words
  rw [View.read_writes_eq_canon _ _ _ (coverO _), View.canon_unit_zero hzA]
  simp only [View.readAt_eq_ld, View.ld_unit_zero (S := S130x128) hzA, View.ld_unit_zero (S := S128x128) hzA]

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay1 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay1 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_pad c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Region1

end Cert.Kernel.Hand
end
-- ==== Proof.Kernel.Run.lean ====
/-
  The whole run of the program: the running-sum region, the two-products region, then the host's broadcast of the
  130×130 result to shape 1×130×130×1. The buffers' contents at each boundary are a fold from the launch memory:
  a region replaces its windows' arrays by what its write-backs leave and keeps every other buffer, the host
  stretch applies its one operation. Each region is entered from "every unscoped buffer at the boundary's contents,
  the generator register at some state, nothing owed" and left at the same over the next boundary's contents.
  The conclusion: every weakly fair execution terminates without a fault and every unscoped buffer ends at the
  last boundary's contents (`run_main`).
-/
import proofs.«147865_j20615843021260_1_alg».proof.Proof.Gen.Kernel.Launch
import proofs.«147865_j20615843021260_1_alg».proof.Proof.Gen.Kernel.Skeleton
import proofs.«147865_j20615843021260_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«147865_j20615843021260_1_alg».proof.Proof.Kernel.Dat0
import proofs.«147865_j20615843021260_1_alg».proof.Proof.Kernel.Reg1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev B0 : Dev nD → Valuation τ sig (Elt F) := fun c b => m (c, b)
/-- The same read at the TensorCore's references: what the first region is entered with. -/
abbrev C0 : (c : Dev nD) → (b : Ref sig .tc) → Buf (Elt F) ((c : Thread nD τ).loc b) := fun c b => B0 m c b

/-- After the first region: its arrays at what its write-backs leave, every other buffer as launched. -/
def B1 (c : Dev nD) : Valuation τ sig (Elt F) :=
  Pipeline.withArrays spec0 c (B0 m c) fun w => (dat0 (C0 m) c).arrAt w cfg0.N
theorem B1_arr (c : Dev nD) (w : Fin cfg0.W) :
    B1 m c (Proc.devRef .tc (Pipeline.arrRef spec0 w)) = (dat0 (C0 m) c).arrAt w cfg0.N := by
  unfold B1; exact Pipeline.withArrays_arr spec0 launch0.win.arr_inj c _ _ w
theorem B1_of_ne (c : Dev nD) (b : Ref sig .tc) (hb : ∀ w, Pipeline.arrRef spec0 w ≠ b) :
    B1 m c (Proc.devRef .tc b) = B0 m c (Proc.devRef .tc b) := by
  unfold B1; exact Pipeline.withArrays_of_ne spec0 c _ _ b hb
/-- The same read at the TensorCore's references: what the second region is entered with. -/
abbrev C1 : (c : Dev nD) → (b : Ref sig .tc) → Buf (Elt F) ((c : Thread nD τ).loc b) := fun c b => B1 m c b
theorem hF0 (c : Dev nD) (w : Fin cfg0.W) : (dat0 (C0 m) c).arrAt w cfg0.N = C1 m c (Pipeline.arrRef spec0 w) :=
  (B1_arr m c w).symm
theorem hrest0 (c : Dev nD) : ∀ b, b ∉ Finset.univ.image (Pipeline.arrRef spec0) → C1 m c b = C0 m c b :=
  fun b hb => B1_of_ne m c b fun w e => hb (Finset.mem_image.mpr ⟨w, Finset.mem_univ _, e⟩)

/-- After the second region. -/
def B2 (c : Dev nD) : Valuation τ sig (Elt F) :=
  Pipeline.withArrays spec1 c (B1 m c) fun w => (dat1 (C1 m) c).arrAt w cfg1.N
theorem B2_arr (c : Dev nD) (w : Fin cfg1.W) :
    B2 m c (Proc.devRef .tc (Pipeline.arrRef spec1 w)) = (dat1 (C1 m) c).arrAt w cfg1.N := by
  unfold B2; exact Pipeline.withArrays_arr spec1 launch1.win.arr_inj c _ _ w
theorem B2_of_ne (c : Dev nD) (b : Ref sig .tc) (hb : ∀ w, Pipeline.arrRef spec1 w ≠ b) :
    B2 m c (Proc.devRef .tc b) = B1 m c (Proc.devRef .tc b) := by
  unfold B2; exact Pipeline.withArrays_of_ne spec1 c _ _ b hb
abbrev C2 : (c : Dev nD) → (b : Ref sig .tc) → Buf (Elt F) ((c : Thread nD τ).loc b) := fun c b => B2 m c b
theorem hF1 (c : Dev nD) (w : Fin cfg1.W) : (dat1 (C1 m) c).arrAt w cfg1.N = C2 m c (Pipeline.arrRef spec1 w) :=
  (B2_arr m c w).symm
theorem hrest1 (c : Dev nD) : ∀ b, b ∉ Finset.univ.image (Pipeline.arrRef spec1) → C2 m c b = C1 m c b :=
  fun b hb => B2_of_ne m c b fun w e => hb (Finset.mem_image.mpr ⟨w, Finset.mem_univ _, e⟩)

/-- After the host's broadcast: the end. -/
abbrev B3 : Dev nD → Valuation τ sig (Elt F) := fun c => StableHlo.after hostOps2 (B2 m c)

/-! ## The proof data family and the thread state -/

abbrev adm : (p : Fin 2) → (pcfgs (F := F) p).Adm := fun p => (cfgs p).toPCfg_adm

def pdats : (p : Fin 2) → (c : Dev nD) → Dat τ (Elt F) Unit ℕ (UR sig nD τ) ℕ (Pipeline.pin (pcfgs (F := F)) adm p) c
  | ⟨0, _⟩ => fun c => dat0 (C0 m) c
  | ⟨1, _⟩ => fun c => dat1 (C1 m) c

abbrev 𝒱₀ : Variants := Variants.none
abbrev L : GSem nD τ sig → Finset Unit := fun _ => ∅
abbrev lv : GSem nD τ sig → Unit → ℕ := fun _ _ => 0

/-- What rides beside the buffers through every segment: the generator register at some state, nothing owed. -/
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps2_fresh : (hostOps2 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`. -/
abbrev Tₙ (c : Dev nD) : sProp 𝕄 := iprop(StableHlo.held (c : Thread nD τ) (Pipeline.ucRefs τ sig) (B3 m c) ∗ ∃ r, prngReg c r)

/-! ## The regions as segments -/

set_option backward.isDefEq.respectTransparency.types false in
/-- The running-sum region: entered from every unscoped buffer at launch contents, left at `B1`. Its arrays are split
    out of the unscoped buffers and put back at the exit contents; the generator register goes into the region's
    invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (C0 m) c).loose
  hwaits := Pipeline.hwaits_of_owed_zero _ _ _ _ L lv 0 fun _ _ => rfl
  pre c := iprop(StableHlo.held (c : Thread nD τ) (Pipeline.ucRefs τ sig) (B0 m c) ∗ R c)
  post c := iprop(StableHlo.held (c : Thread nD τ) (Pipeline.ucRefs τ sig) (B1 m c) ∗ R c)
  X c := iprop(∃ r, prngReg c r)
  Y c := iprop(∃ r, prngReg c r)
  Z c := Pipeline.unscopedRest (Ix := Unit) (Name := ℕ) (U := UR sig nD τ) (Lvl := ℕ) spec0 c (C0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (C0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (C0 m) c).Φ 0 from rfl]
    refine .trans ?_ (hin0 (C0 m) c)
    unfold Pipeline.ΦA
    iintro ⟨Hp, -, Hr⟩
    isplitl [Hr]; · iexact Hr
    iexact Hp
  hout c := by
    rw [Pipeline.ownSems0_none, show (pdats m 0 c).Φ (Fin.last _) = (dat0 (C0 m) c).Φ (Fin.last cfg0.N) from rfl]
    refine (hout0 (C0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (C0 m c) (C1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The two-products region: entered from `B1`, left at `B2`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (C1 m) c).loose
  hwaits := Pipeline.hwaits_of_owed_zero _ _ _ _ L lv 1 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec1 c (C1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (C1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (C1 m c) (C2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m),
    .region (reg1 m),
    .host (hseg hostOps2 hostOps2_sub hostOps2_fresh (B2 m)) ]

theorem main_run (c : Dev nD) : main (F := F) c = Pipeline.Seg.run (segs m) := (main_chain c).trans (by chain_rfl)

set_option backward.isDefEq.respectTransparency.types false in
/-- THE RUN: from any memory with zero counters every weakly fair execution of @main terminates, nothing faults,
    and every unscoped buffer ends at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = B3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun c =>
      (show iprop(StableHlo.held (c : Thread nD τ) (Pipeline.ucRefs τ sig) (B3 m c) ∗ R c)
          ⊢ iprop(Tₙ m c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B3 m c b)
    (hfin := fun c s' => by
      iintro ⟨⟨Hh, -⟩, HSI⟩
      unfold StableHlo.held
      imodintro
      iapply (pointsTo_read_all (Pipeline.ucRefs τ sig) (fun b => (((c : Thread nD τ)).1, b)) (B3 m c) s')
      isplitl [Hh] <;> iassumption)
    (hQ := fun s h c => h c)

end Cert.Kernel.Hand
end
-- ==== Proof.Kernel.Arrays.lean ====
/-
  What the two regions leave in their output arrays, as functions of the buffers they were entered with.
  Every window of the second region, and the output window of the first, is the whole array (one block at block
  index zero), so a read through such a block is a read of the array. The first region's input window at point
  `t` is the block of the two batch entries `2t` and `2t + 1`. The first region writes its output back once, after
  the last point: the array ends at what the accumulator holds then. The second region's output array ends at the
  double product of its two input arrays.
-/
import proofs.«147865_j20615843021260_1_alg».proof.Proof.Gen.Kernel.Launch
import proofs.«147865_j20615843021260_1_alg».proof.Proof.Gen.Kernel.Skeleton
import proofs.«147865_j20615843021260_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«147865_j20615843021260_1_alg».proof.Proof.Kernel.Run
import Idealize.ShloMosaic.Lib.ValueIdx

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.ValueIdx

section Arrays

variable (V : (c : Dev nD) → (b : Ref sig .tc) → Buf (Elt F) ((c : Thread nD τ).loc b))

/-! ## The second region: every block is its whole array -/

theorem idx1 : ∀ t : Fin cfg1.N, win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

theorem read_blk1_0 (X : S130x128.Idx → Elt F .f32) (t : Fin cfg1.N) : ((cfg1.win 0).blk t).view.read (Elt F) X = X := by
  obtain ⟨e0, e1, -, -, -, -⟩ := idx1 t
  funext y
  rw [View.read_apply]
  show X (((cfg1.win 0).blk t).view.emb y) = X y
  refine congrArg X (funext fun a => Fin.ext ?_)
  match a with
  | ⟨0, _⟩ => show win1_0.index t (0 : Fin 2) * 130 + 1 * (y 0).val = (y 0).val; omega
  | ⟨1, _⟩ => show win1_0.index t (1 : Fin 2) * 128 + 1 * (y 1).val = (y 1).val; omega

theorem read_blk1_1 (X : S128x128.Idx → Elt F .f32) (t : Fin cfg1.N) : ((cfg1.win 1).blk t).view.read (Elt F) X = X := by
  obtain ⟨-, -, e0, e1, -, -⟩ := idx1 t
  funext y
  rw [View.read_apply]
  show X (((cfg1.win 1).blk t).view.emb y) = X y
  refine congrArg X (funext fun a => Fin.ext ?_)
  match a with
  | ⟨0, _⟩ => show win1_1.index t (0 : Fin 2) * 128 + 1 * (y 0).val = (y 0).val; omega
  | ⟨1, _⟩ => show win1_1.index t (1 : Fin 2) * 128 + 1 * (y 1).val = (y 1).val; omega

theorem read_blk1_2 (X : S130x130.Idx → Elt F .f32) (t : Fin cfg1.N) : ((cfg1.win 2).blk t).view.read (Elt F) X = X := by
  obtain ⟨-, -, -, -, e0, e1⟩ := idx1 t
  funext y
  rw [View.read_apply]
  show X (((cfg1.win 2).blk t).view.emb y) = X y
  refine congrArg X (funext fun a => Fin.ext ?_)
  match a with
  | ⟨0, _⟩ => show win1_2.index t (0 : Fin 2) * 130 + 1 * (y 0).val = (y 0).val; omega
  | ⟨1, _⟩ => show win1_2.index t (1 : Fin 2) * 130 + 1 * (y 1).val = (y 1).val; omega

theorem iblk1_0 (c : Dev nD) (t : Fin cfg1.N) : iblk1 V c 0 t = V c main_arg1 := by
  unfold iblk1; exact read_blk1_0 _ t
theorem iblk1_1 (c : Dev nD) (t : Fin cfg1.N) : iblk1 V c 1 t = V c main_v0 := by
  unfold iblk1; exact read_blk1_1 _ t

theorem mem_blk1_2 (t : Fin cfg1.N) (i : S130x130.Idx) : i ∈ ((cfg1.win 2).blk t).view.set := by
  obtain ⟨-, -, -, -, e0, e1⟩ := idx1 t
  show i ∈ ((View.whole main_v1).slice (win1_2.rect t)).set
  rw [View.set_slice_whole, Rect.mem_set_unit]
  intro a
  match a with
  | ⟨0, _⟩ =>
    show win1_2.index t (0 : Fin 2) * 130 ≤ (i 0).val ∧ (i 0).val < win1_2.index t (0 : Fin 2) * 130 + 130
    have : (i 0).val < 130 := (i 0).isLt; omega
  | ⟨1, _⟩ =>
    show win1_2.index t (1 : Fin 2) * 130 ≤ (i 1).val ∧ (i 1).val < win1_2.index t (1 : Fin 2) * 130 + 130
    have : (i 1).val < 130 := (i 1).isLt; omega

/-- The second region's output array after the region: the double product of its two input arrays. -/
theorem final1 (c : Dev nD) : (dat1 V c).arrAt 2 cfg1.N = k1_pay1 (V c main_arg1) (V c main_v0) := by
  refine (dat1 V c).arrAt_eq_of_cover 2 _ (fun t _ => ?_) (fun i => ⟨t1_0, flush1_2 t1_0, mem_blk1_2 t1_0 i⟩)
  show (cfg1.win 2).cut (grid1.coords t) ((dat1 V c).after 2 t) = _
  rw [after1_2, iblk1_0, iblk1_1, read_blk1_2]
  rfl

/-! ## The first region -/

theorem idx0 : ∀ t : Fin cfg0.N, win0_0.index t (0 : Fin 4) = t.val ∧ win0_0.index t (1 : Fin 4) = 0
    ∧ win0_0.index t (2 : Fin 4) = 0 ∧ win0_0.index t (3 : Fin 4) = 0
    ∧ win0_1.index t (0 : Fin 2) = 0 ∧ win0_1.index t (1 : Fin 2) = 0 :=
  (by decide +kernel : ∀ t : Fin grid0.N, _)

/-- The input block at point `t` holds the batch entries `2t` and `2t + 1` of the input array. -/
theorem iblk0_apply (c : Dev nD) (t : Fin cfg0.N) (b : Fin 2) (p q : Fin 128) (ch : Fin 16) (B : Fin 512)
    (hB : B.val = 2 * t.val + b.val) :
    iblk0 V c 0 t (ix4 b p q ch) = V c main_arg0 (ix4 B p q ch) := by
  obtain ⟨e0, e1, e2, e3, -, -⟩ := idx0 t
  unfold iblk0
  rw [View.read_apply]
  show V c main_arg0 (((cfg0.win 0).blk t).view.emb (ix4 b p q ch)) = V c main_arg0 (ix4 B p q ch)
  refine congrArg (V c main_arg0) (funext fun a => Fin.ext ?_)
  match a with
  | ⟨0, _⟩ => show win0_0.index t (0 : Fin 4) * 2 + 1 * b.val = B.val; omega
  | ⟨1, _⟩ => show win0_0.index t (1 : Fin 4) * 128 + 1 * p.val = p.val; omega
  | ⟨2, _⟩ => show win0_0.index t (2 : Fin 4) * 128 + 1 * q.val = q.val; omega
  | ⟨3, _⟩ => show win0_0.index t (3 : Fin 4) * 16 + 1 * ch.val = ch.val; omega

theorem read_blk0_1 (X : S128x128.Idx → Elt F .f32) (t : Fin cfg0.N) : ((cfg0.win 1).blk t).view.read (Elt F) X = X := by
  obtain ⟨-, -, -, -, e0, e1⟩ := idx0 t
  funext y
  rw [View.read_apply]
  show X (((cfg0.win 1).blk t).view.emb y) = X y
  refine congrArg X (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

theorem mem_blk0_1 (t : Fin cfg0.N) (i : S128x128.Idx) : i ∈ ((cfg0.win 1).blk t).view.set := by
  obtain ⟨-, -, -, -, e0, e1⟩ := idx0 t
  show i ∈ ((View.whole main_v0).slice (win0_1.rect t)).set
  rw [View.set_slice_whole, Rect.mem_set_unit]
  intro a
  match a with
  | ⟨0, _⟩ =>
    show win0_1.index t (0 : Fin 2) * 128 ≤ (i 0).val ∧ (i 0).val < win0_1.index t (0 : Fin 2) * 128 + 128
    have : (i 0).val < 128 := (i 0).isLt; omega
  | ⟨1, _⟩ =>
    show win0_1.index t (1 : Fin 2) * 128 ≤ (i 1).val ∧ (i 1).val < win0_1.index t (1 : Fin 2) * 128 + 128
    have : (i 1).val < 128 := (i 1).isLt; omega

theorem lastPt_lt : 255 < cfg0.N := by rw [show cfg0.N = 256 from N_0]; decide

/-- The first region's output array after the region: what the accumulator holds after the last point. -/
theorem final0 (c : Dev nD) : (dat0 V c).arrAt 1 cfg0.N = accAt V c 255 lastPt_lt := by
  refine (dat0 V c).arrAt_eq_of_cover 1 _ (fun t hf => ?_)
    (fun i => ⟨⟨255, lastPt_lt⟩, (flush0_1 ⟨255, lastPt_lt⟩).mpr (by decide), mem_blk0_1 _ i⟩)
  have ht : t.val = 255 := by
    have h := (flush0_1 t).mp hf
    have hN : t.val < 256 := lt_of_lt_of_eq t.isLt N_0
    omega
  obtain ⟨n, hn⟩ := t
  dsimp only at ht
  subst ht
  show (cfg0.win 1).cut (grid0.coords ⟨255, hn⟩) ((dat0 V c).after 1 ⟨255, hn⟩) = _
  rw [after0_1, read_blk0_1]
  rfl

end Arrays

end Cert.Kernel.Hand
end
-- ==== Proof.Kernel.Ends.lean ====
/-
  What the run ends with, buffer by buffer: each argument array as launched (no host operation writes one; a region
  only reads it through an input window or leaves it alone), and the result as the host's broadcast of the second
  region's double product, taken of the second argument and of what the first region's accumulator held after its
  last point. Then the frame claim: the program terminates without a fault and its arguments end unchanged.
-/
import proofs.«147865_j20615843021260_1_alg».proof.Proof.Gen.Kernel.Launch
import proofs.«147865_j20615843021260_1_alg».proof.Proof.Gen.Kernel.Skeleton
import proofs.«147865_j20615843021260_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«147865_j20615843021260_1_alg».proof.Proof.Kernel.Arrays

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host's broadcast writes only its own result. -/
theorem B3_of_ne (c : Dev nD) (b : Ref sig .tc) (hb : b ≠ main_v2) :
    B3 m c (Proc.devRef .tc b) = B2 m c (Proc.devRef .tc b) :=
  StableHlo.after_of_forall_not_mem (b := Proc.devRef .tc b) _ _ (List.forall_iff_forall_mem.mp (by
    simp only [hostOps2, List.Forall, StableHlo.unary_writes, Finset.mem_singleton]
    exact StableHlo.devRef_ne_of_ne hb))

theorem B3_main_arg0 (c : Dev nD) : B3 m c (Proc.devRef .tc main_arg0) = m ((c : Thread nD τ).loc main_arg0) :=
  calc B3 m c (Proc.devRef .tc main_arg0)
    _ = B2 m c (Proc.devRef .tc main_arg0) := B3_of_ne m c main_arg0 (by decide)
    _ = B1 m c (Proc.devRef .tc main_arg0) := B2_of_ne m c main_arg0 (by decide)
    _ = B0 m c (Proc.devRef .tc main_arg0) := (B1_arr m c 0).trans (((dat0 (C0 m) c).arrAt_in 0 rfl _).trans (A_eq0 (C0 m) c 0))
    _ = m ((c : Thread nD τ).loc main_arg0) := rfl

theorem B1_main_arg1 (c : Dev nD) : B1 m c (Proc.devRef .tc main_arg1) = m ((c : Thread nD τ).loc main_arg1) :=
  B1_of_ne m c main_arg1 (by decide)

theorem B3_main_arg1 (c : Dev nD) : B3 m c (Proc.devRef .tc main_arg1) = m ((c : Thread nD τ).loc main_arg1) :=
  calc B3 m c (Proc.devRef .tc main_arg1)
    _ = B2 m c (Proc.devRef .tc main_arg1) := B3_of_ne m c main_arg1 (by decide)
    _ = B1 m c (Proc.devRef .tc main_arg1) := (B2_arr m c 0).trans (((dat1 (C1 m) c).arrAt_in 0 rfl _).trans (A_eq1 (C1 m) c 0))
    _ = m ((c : Thread nD τ).loc main_arg1) := B1_main_arg1 m c

/-- What the second region finds in the first region's output array: the accumulator after the last point. -/
theorem B1_main_v0 (c : Dev nD) : B1 m c (Proc.devRef .tc main_v0) = accAt (C0 m) c 255 lastPt_lt :=
  (B1_arr m c 1).trans (final0 (C0 m) c)

/-- The second region's output array after it. -/
theorem B2_main_v1 (c : Dev nD) :
    B2 m c (Proc.devRef .tc main_v1) = k1_pay1 (m ((c : Thread nD τ).loc main_arg1)) (accAt (C0 m) c 255 lastPt_lt) := by
  refine (B2_arr m c 2).trans ((final1 (C1 m) c).trans ?_)
  rw [show C1 m c main_arg1 = m ((c : Thread nD τ).loc main_arg1) from B1_main_arg1 m c,
    show C1 m c main_v0 = accAt (C0 m) c 255 lastPt_lt from B1_main_v0 m c]

/-- The result buffer at the end. -/
theorem B3_main_v2 (c : Dev nD) :
    B3 m c (Proc.devRef .tc main_v2)
      = broadcastInDim S1x130x130x1 ![1, 2] bcast_S130x130_S1x130x130x1_1_2
          (k1_pay1 (m ((c : Thread nD τ).loc main_arg1)) (accAt (C0 m) c 255 lastPt_lt)) := by
  rw [← B2_main_v1 m c]
  show StableHlo.after hostOps2 (B2 m c) (Proc.devRef .tc main_v2) = _
  after_results

/-- THE RUN, READ: the result at its term, the arguments unchanged. -/
theorem run_read : θ_run defs (onTc (τ := τ) (main (F := F))) ⟨m, fun _ => 0, ρ⟩ (fun r => ∀ c : Dev nD,
      r.2.mem ((c.tc : Thread nD τ).loc main_v2)
        = broadcastInDim S1x130x130x1 ![1, 2] bcast_S130x130_S1x130x130x1_1_2
            (k1_pay1 (m ((c : Thread nD τ).loc main_arg1)) (accAt (C0 m) c 255 lastPt_lt))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_v2 (by decide))).trans (B3_main_v2 m c),
     (h c _ (mem_uc main_arg0 (by decide))).trans (B3_main_arg0 m c),
     (h c _ (mem_uc main_arg1 (by decide))).trans (B3_main_arg1 m c)⟩) (run_main m ρ)

/-- THE FRAME: every weakly fair execution terminates, nothing faults, the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_read m ρ)

end Cert.Kernel.Hand
end
-- ==== Proof.KernelIdeal.Reg0.lean ====
/-
  The first kernel region, the running sum. Its grid has 256 points; point `t` loads the block of two batch
  entries `x[2t .. 2t+1, :, :, :]`, sums it over the channel axis and then over the batch axis, and adds the
  128×128 result to a scratch accumulator that the first point zeroes; after every point the accumulator is
  copied to the output window's buffer, which is written back to the array once, after the last point.
  Here: what the accumulator holds after point `n` (`accAt`: a recursion on the point), the body's triple in its
  two control cases (the first point, every later point), and the region's proof data with the body obligation.
  Everything is stated for any float instance `F` and any contents `V` of the buffers at the region's entry.
-/
import proofs.«147865_j20615843021260_1_alg».proof.Proof.Gen.KernelIdeal.Launch
import proofs.«147865_j20615843021260_1_alg».proof.Proof.Gen.KernelIdeal.Skeleton
import proofs.«147865_j20615843021260_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-! ## The body's rectangles: each access is the whole buffer -/

abbrev rA : Rect S128x128 := Rect.unit (s := S128x128) ![0, 0] S128x128.size inb_S128x128_S128x128_0_0
abbrev rX : Rect S2x128x128x16 := Rect.unit (s := S2x128x128x16) ![0, 0, 0, 0] S2x128x128x16.size inb_S2x128x128x16_S2x128x128x16_0_0_0_0

theorem hzA : (![0, 0] : Fin 2 → Nat) = fun _ => 0 := by
  funext a; fin_cases a <;> rfl
theorem hzX : (![0, 0, 0, 0] : Fin 4 → Nat) = fun _ => 0 := by
  funext a; fin_cases a <;> rfl

/-- One whole-buffer store, last in a list of stores, covers every index. -/
theorem coverA (p : Vec F S128x128 .f32) (L : List (View.Piece (Elt F) S128x128 .f32)) (y : S128x128.Idx) :
    ∃ pc ∈ ((⟨rA, p⟩ : View.Piece (Elt F) S128x128 .f32) :: L), y ∈ pc.1.set :=
  ⟨_, List.mem_cons_self, View.mem_set_unit_zero hzA inb_S128x128_S128x128_0_0 y⟩

/-! ## The input window's block at a point -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current buffer holds its block at every point, for any proof data over the entry contents
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The branch: the accumulator is zeroed at the first point only -/

/-- The condition of the body's one `scf.if`, from the grid coordinate. -/
abbrev firstPt (i : grid0.Coords) : Prop :=
  (Scalar.cmpi .ne (Scalar.extui (Scalar.cmpi .eq (BitVec.ofNat 32 (i 0).val) 0#32)) 0#32) = 1#1

/-- It holds at point 0 and nowhere else. -/
theorem hfirst : ∀ t : Fin cfg0.N, firstPt (grid0.coords t) ↔ t.val = 0 :=
  (by decide +kernel : ∀ t : Fin grid0.N, firstPt (grid0.coords t) ↔ t.val = 0)

/-! ## The accumulator after each point -/

/-- The scratch accumulator (and the output window's buffer) after the body at point `n`: the zero block plus
    the block sum of point 0, then each later point's block sum added to what the point before left. -/
def accAt (c : Dev nD) : (n : ℕ) → n < cfg0.N → Vec F S128x128 .f32
  | 0, h => k0_pay2 (iblk0 V c 0 ⟨0, h⟩) (k0_pay1 (F := F))
  | n + 1, h => k0_pay2 (iblk0 V c 0 ⟨n + 1, h⟩) (accAt c n (Nat.lt_of_succ_lt h))

theorem accAt_zero (c : Dev nD) (t : Fin cfg0.N) (h : t.val = 0) :
    accAt V c t.val t.isLt = k0_pay2 (iblk0 V c 0 t) (k0_pay1 (F := F)) := by
  obtain ⟨n, hn⟩ := t
  cases n with
  | zero => rfl
  | succ n => exact absurd h (Nat.succ_ne_zero n)

theorem accAt_pos (c : Dev nD) (t : Fin cfg0.N) (h : t.val ≠ 0) :
    accAt V c t.val t.isLt = k0_pay2 (iblk0 V c 0 t) (accAt V c (t.val - 1) (Nat.lt_of_le_of_lt (Nat.sub_le _ _) t.isLt)) := by
  obtain ⟨n, hn⟩ := t
  cases n with
  | zero => exact absurd rfl h
  | succ n => rfl

/-! ## The body's triple, case by case -/

set_option maxHeartbeats 1000000 in
/-- The first point: whatever the scratch and the output buffer held, both end at the zero block plus the
    input block's sum; the input buffer is as it was. -/
theorem sound_first (c : Dev nD) (E : Set ℕ) (i : grid0.Coords) (hc : firstPt i)
    (arg1 : Memref sig .tc .vmem S2x128x128x16 .f32) (harg1 : arg1.IsWhole)
    (arg2 : Memref sig .tc .vmem S128x128 .f32) (harg2 : arg2.IsWhole)
    (arg3 : Memref sig .tc .vmem S128x128 .f32) (harg3 : arg3.IsWhole)
    (x0 : Vec F S2x128x128x16 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (k0_pay2 x0 (k0_pay1 (F := F)))
            ∗ owns (c : Thread nD τ) arg3 fullShare (k0_pay2 x0 (k0_pay1 (F := F)))) -∗ K ⟨⟩))
      ⊢ wp frame (wpE (defs₀ (F := F)) Variants.none c none) E (cc0__reduce_kernel i arg1 harg1 arg2 harg2 arg3 harg3) K := by
  simp only [cc0__reduce_kernel_eq_skeleton]; unfold cc0__reduce_kernel_skel
  unfold owns
  iintro ⟨⟨%f0, %hf0, H0⟩, ⟨%d1, %f1, -, H1⟩, ⟨%d2, %f2, -, H2⟩, Hk⟩
  subst hf0
  sl_exec (disch := exact hc)
  sl_step
  iapply Hk
  isplitl [H0]
  · iexists f0; isplitr; · ipureintro; rfl
    iexact H0
  isplitl [H1]
  · iexists _; isplitr
    swap; · iexact H1
    ipureintro
    sl_unfold_words
    rw [View.read_writes_eq_canon _ _ _ (coverA _ _), View.canon_unit_zero hzA,
      View.readCov_eq_canon_ld _ _ _ (coverA _ _), View.canon_cons_unit_zero hzA, View.ld_unit_zero hzA]
    simp only [View.readAt_eq_ld, View.ld_unit_zero (S := S2x128x128x16) hzX, View.readCov_unit_zero (S := S128x128) _ hzA]
  · iexists _; isplitr
    swap; · iexact H2
    ipureintro
    sl_unfold_words
    rw [View.read_writes_eq_canon _ _ _ (coverA _ _), View.canon_cons_unit_zero hzA]
    simp only [View.readAt_eq_ld, View.ld_unit_zero (S := S2x128x128x16) hzX, View.readCov_unit_zero (S := S128x128) _ hzA]

set_option maxHeartbeats 1000000 in
/-- A later point: the scratch holds `a`, what the point before left; it and the output buffer end at `a` plus
    the input block's sum; the input buffer is as it was. -/
theorem sound_later (c : Dev nD) (E : Set ℕ) (i : grid0.Coords) (hc : ¬ firstPt i)
    (arg1 : Memref sig .tc .vmem S2x128x128x16 .f32) (harg1 : arg1.IsWhole)
    (arg2 : Memref sig .tc .vmem S128x128 .f32) (harg2 : arg2.IsWhole)
    (arg3 : Memref sig .tc .vmem S128x128 .f32) (harg3 : arg3.IsWhole)
    (x0 : Vec F S2x128x128x16 .f32) (a : Vec F S128x128 .f32) (K : PUnit → sProp 𝕄) :
    iprop(owns (c : Thread nD τ) arg1 fullShare x0 ∗ (∃ d, owns (c : Thread nD τ) arg2 fullShare d) ∗ owns (c : Thread nD τ) arg3 fullShare a
        ∗ (iprop(owns (c : Thread nD τ) arg1 fullShare x0 ∗ owns (c : Thread nD τ) arg2 fullShare (k0_pay2 x0 a)
            ∗ owns (c : Thread nD τ) arg3 fullShare (k0_pay2 x0 a)) -∗ K ⟨⟩))
      ⊢ wp frame (wpE (defs₀ (F := F)) Variants.none c none) E (cc0__reduce_kernel i arg1 harg1 arg2 harg2 arg3 harg3) K := by
  simp only [cc0__reduce_kernel_eq_skeleton]; unfold cc0__reduce_kernel_skel
  unfold owns
  iintro ⟨⟨%f0, %hf0, H0⟩, ⟨%d1, %f1, -, H1⟩, ⟨%f2, %hf2, H2⟩, Hk⟩
  subst hf0; subst hf2
  sl_exec (disch := exact hc)
  sl_step
  iapply Hk
  isplitl [H0]
  · iexists f0; isplitr; · ipureintro; rfl
    iexact H0
  isplitl [H1]
  · iexists _; isplitr
    swap; · iexact H1
    ipureintro
    sl_unfold_words
    rw [View.read_writes_eq_canon _ _ _ (coverA _ _), View.canon_unit_zero hzA,
      View.readCov_unit_zero _ hzA]
    simp only [View.readAt_eq_ld, View.ld_unit_zero (S := S2x128x128x16) hzX, View.ld_unit_zero (S := S128x128) hzA]
  · iexists _; isplitr
    swap; · iexact H2
    ipureintro
    sl_unfold_words
    rw [View.read_writes_eq_canon _ _ _ (coverA _ _), View.canon_unit_zero hzA]
    simp only [View.readAt_eq_ld, View.ld_unit_zero (S := S2x128x128x16) hzX, View.ld_unit_zero (S := S128x128) hzA]

end Region0

end Cert.KernelIdeal.Hand
end
-- ==== Proof.KernelIdeal.Dat0.lean ====
/-
  The proof data of the first kernel region (the running sum) and its body obligation. Between two points the
  region's invariant holds the scratch accumulator at `accAt` of the point before (at anything before the first
  point), the scoped buffers the region does not use at anything, and the generator register; after the body at
  point `t` the input window's buffer holds its block and the output window's buffer holds `accAt t`.
-/
import proofs.«147865_j20615843021260_1_alg».proof.Proof.Gen.KernelIdeal.Launch
import proofs.«147865_j20615843021260_1_alg».proof.Proof.Gen.KernelIdeal.Skeleton
import proofs.«147865_j20615843021260_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«147865_j20615843021260_1_alg».proof.Proof.KernelIdeal.Reg0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- The scratch accumulator as the pipeline passes it to the body: the whole scoped buffer. -/
abbrev scM : Memref sig .tc .vmem S128x128 .f32 := Memref.whole cc0_scratch0

/-- The scoped buffers this region never touches (the second region's staging buffers), each at some contents. -/
def restS (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f))

/-- What the region is entered with: the scratch at anything, the unused scoped buffers, the generator register. -/
theorem PhiA0_eq (c : Dev nD) :
    (Pipeline.ΦA spec0 c : sProp 𝕄)
      = iprop(iprop((∃ d, owns (c : Thread nD τ) scM fullShare d) ∗ restS (F := F) c) ∗ (∃ r, prngReg c r)) := by
  unfold Pipeline.ΦA restS; rw [scopedRest0_eq]; simp only [scM, owns_whole]; try rfl

/-- The region's invariant before position `n`: before the first point what the region is entered with; afterwards
    the same with the scratch at what the point before left in it. -/
def PhiS (c : Dev nD) : (n : ℕ) → n ≤ cfg0.N → sProp 𝕄
  | 0, _ => Pipeline.ΦA spec0 c
  | n + 1, hn => iprop(iprop(owns (c : Thread nD τ) scM fullShare (accAt V c n hn) ∗ restS (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM fullShare (accAt V c n hn) ∗ restS (F := F) c) ∗ (∃ r, prngReg c r)) := rfl

theorem PhiS_pos (c : Dev nD) (n : ℕ) (h : n ≤ cfg0.N) (hz : n ≠ 0) :
    PhiS V c n h = iprop(iprop(owns (c : Thread nD τ) scM fullShare (accAt V c (n - 1) (by omega)) ∗ restS (F := F) c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => accAt V c t.val t.isLt
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = accAt V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

set_option maxHeartbeats 1000000 in
/-- The body at any point: at the first the scratch is handed over at anything and the first case's triple applies;
    at a later point it is handed over at what the point before left and the other case's triple applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl,
    show (dat0 V c).Φ t.succ = PhiS V c (t.val + 1) t.isLt from rfl, PhiS_succ, after0_0, after0_1]
  by_cases hz : t.val = 0
  · rw [PhiS_castSucc V c t, PhiS_zero V c _ _ hz, PhiA0_eq, accAt_zero V c t hz]
    iintro ⟨⟨⟨HS, HR⟩, Hg⟩, Ho, ⟨%d0, H0⟩, ⟨%d1, H1⟩⟩
    iapply (sound_first c Set.univ (grid0.coords t) ((hfirst t).mpr hz) _ _ _ _ _ _ (iblk0 V c 0 t) _)
    isplitl [H0]; · iexact H0
    isplitl [H1]; · iexists _; iexact H1
    isplitl [HS]; · iexact HS
    iintro ⟨H0, H1, HS⟩
    isplitl [HS HR Hg]
    · isplitl [HS HR]
      · isplitl [HS]; · iexact HS
        iexact HR
      iexact Hg
    isplitl [Ho]; · iexact Ho
    isplitl [H0]; · iexact H0
    iexact H1
  · rw [PhiS_castSucc V c t, PhiS_pos V c _ _ hz, accAt_pos V c t hz]
    iintro ⟨⟨⟨HS, HR⟩, Hg⟩, Ho, ⟨%d0, H0⟩, ⟨%d1, H1⟩⟩
    iapply (sound_later c Set.univ (grid0.coords t) (fun h => hz ((hfirst t).mp h)) _ _ _ _ _ _ (iblk0 V c 0 t) _ _)
    isplitl [H0]; · iexact H0
    isplitl [H1]; · iexists _; iexact H1
    isplitl [HS]; · iexact HS
    iintro ⟨H0, H1, HS⟩
    isplitl [HS HR Hg]
    · isplitl [HS HR]
      · isplitl [HS]; · iexact HS
        iexact HR
      iexact Hg
    isplitl [Ho]; · iexact Ho
    isplitl [H0]; · iexact H0
    iexact H1

theorem body_obligation0 (c : Dev nD) : BodyObligation (dat0 (F := F) V c) (defs₀ (F := F)) Variants.none () Set.univ := fun t => by
  rw [bigSep_W0, bigSep_W0]
  exact sound_body0 V c t

/-- The invariant before the first point is what the region is entered with, -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- and after the last point it gives that back, the accumulator's contents forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 256 := N_0; omega), PhiA0_eq]
  iintro ⟨⟨HS, HR⟩, Hg⟩
  isplitl [HS HR]
  · isplitl [HS]; · iexists _; iexact HS
    iexact HR
  iexact Hg

end Region0

end Cert.KernelIdeal.Hand
end
-- ==== Proof.KernelIdeal.Reg1.lean ====
/-
  The second kernel region, the two matrix products. Its grid has one point: the body loads the 130×128 matrix
  `pre` and the 128×128 matrix the first region produced, forms `(pre · xs) · preᵀ` (each product into a zero
  accumulator) and stores the 130×130 result through the whole output buffer, which is then written back.
  Here: the body's triple, the region's proof data and its body obligation, for any float instance and any
  contents `V` of the buffers at the region's entry.
-/
import proofs.«147865_j20615843021260_1_alg».proof.Proof.Gen.KernelIdeal.Launch
import proofs.«147865_j20615843021260_1_alg».proof.Proof.Gen.KernelIdeal.Skeleton
import proofs.«147865_j20615843021260_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«147865_j20615843021260_1_alg».proof.Proof.KernelIdeal.Reg0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

abbrev rP : Rect S130x128 := Rect.unit (s := S130x128) ![0, 0] S130x128.size inb_S130x128_S130x128_0_0
abbrev rO : Rect S130x130 := Rect.unit (s := S130x130) ![0, 0] S130x130.size inb_S130x130_S130x130_0_0

/-- The one whole-buffer store covers every index of the output block. -/
theorem coverO (p : Vec F S130x130 .f32) (y : S130x130.Idx) :
    ∃ pc ∈ ([⟨rO, p⟩] : List (View.Piece (Elt F) S130x130 .f32)), y ∈ pc.1.set :=
  ⟨_, List.mem_cons_self, View.mem_set_unit_zero hzA inb_S130x130_S130x130_0_0 y⟩

/-- Window `w`'s block at the region's one point, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

set_option maxHeartbeats 1000000 in
/-- The body: the two input buffers are read and left as they were; the output buffer, whatever it held, ends at
    the double product of the two inputs. -/
theorem sound_pad (c : Dev nD) (E : Set ℕ) (i : grid1.Coords)
    (arg1 : Memref sig .tc .vmem S130x128 .f32) (harg1 : arg1.IsWhole)
    (arg2 : Memref sig .tc .vmem S128x128 .f32) (harg2 : arg2.IsWhole)
    (arg3 : Memref sig .tc .vmem S130x130 .f32) (harg3 : arg3.IsWhole)
    (x0 : Vec F S130x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (k1_pay1 x0 x1)) -∗ K ⟨⟩))
      ⊢ wp frame (wpE (defs₀ (F := F)) Variants.none c none) E (cc1__pad_kernel i arg1 harg1 arg2 harg2 arg3 harg3) K := by
  simp only [cc1__pad_kernel_eq_skeleton]; unfold cc1__pad_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  sl_unfold_words
  rw [View.read_writes_eq_canon _ _ _ (coverO _), View.canon_unit_zero hzA]
  simp only [View.readAt_eq_ld, View.ld_unit_zero (S := S130x128) hzA, View.ld_unit_zero (S := S128x128) hzA]

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay1 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay1 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_pad c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Region1

end Cert.KernelIdeal.Hand
end
-- ==== Proof.KernelIdeal.Run.lean ====
/-
  The whole run of the program: the running-sum region, the two-products region, then the host's broadcast of the
  130×130 result to shape 1×130×130×1. The buffers' contents at each boundary are a fold from the launch memory:
  a region replaces its windows' arrays by what its write-backs leave and keeps every other buffer, the host
  stretch applies its one operation. Each region is entered from "every unscoped buffer at the boundary's contents,
  the generator register at some state, nothing owed" and left at the same over the next boundary's contents.
  The conclusion: every weakly fair execution terminates without a fault and every unscoped buffer ends at the
  last boundary's contents (`run_main`).
-/
import proofs.«147865_j20615843021260_1_alg».proof.Proof.Gen.KernelIdeal.Launch
import proofs.«147865_j20615843021260_1_alg».proof.Proof.Gen.KernelIdeal.Skeleton
import proofs.«147865_j20615843021260_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«147865_j20615843021260_1_alg».proof.Proof.KernelIdeal.Dat0
import proofs.«147865_j20615843021260_1_alg».proof.Proof.KernelIdeal.Reg1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev B0 : Dev nD → Valuation τ sig (Elt F) := fun c b => m (c, b)
/-- The same read at the TensorCore's references: what the first region is entered with. -/
abbrev C0 : (c : Dev nD) → (b : Ref sig .tc) → Buf (Elt F) ((c : Thread nD τ).loc b) := fun c b => B0 m c b

/-- After the first region: its arrays at what its write-backs leave, every other buffer as launched. -/
def B1 (c : Dev nD) : Valuation τ sig (Elt F) :=
  Pipeline.withArrays spec0 c (B0 m c) fun w => (dat0 (C0 m) c).arrAt w cfg0.N
theorem B1_arr (c : Dev nD) (w : Fin cfg0.W) :
    B1 m c (Proc.devRef .tc (Pipeline.arrRef spec0 w)) = (dat0 (C0 m) c).arrAt w cfg0.N := by
  unfold B1; exact Pipeline.withArrays_arr spec0 launch0.win.arr_inj c _ _ w
theorem B1_of_ne (c : Dev nD) (b : Ref sig .tc) (hb : ∀ w, Pipeline.arrRef spec0 w ≠ b) :
    B1 m c (Proc.devRef .tc b) = B0 m c (Proc.devRef .tc b) := by
  unfold B1; exact Pipeline.withArrays_of_ne spec0 c _ _ b hb
/-- The same read at the TensorCore's references: what the second region is entered with. -/
abbrev C1 : (c : Dev nD) → (b : Ref sig .tc) → Buf (Elt F) ((c : Thread nD τ).loc b) := fun c b => B1 m c b
theorem hF0 (c : Dev nD) (w : Fin cfg0.W) : (dat0 (C0 m) c).arrAt w cfg0.N = C1 m c (Pipeline.arrRef spec0 w) :=
  (B1_arr m c w).symm
theorem hrest0 (c : Dev nD) : ∀ b, b ∉ Finset.univ.image (Pipeline.arrRef spec0) → C1 m c b = C0 m c b :=
  fun b hb => B1_of_ne m c b fun w e => hb (Finset.mem_image.mpr ⟨w, Finset.mem_univ _, e⟩)

/-- After the second region. -/
def B2 (c : Dev nD) : Valuation τ sig (Elt F) :=
  Pipeline.withArrays spec1 c (B1 m c) fun w => (dat1 (C1 m) c).arrAt w cfg1.N
theorem B2_arr (c : Dev nD) (w : Fin cfg1.W) :
    B2 m c (Proc.devRef .tc (Pipeline.arrRef spec1 w)) = (dat1 (C1 m) c).arrAt w cfg1.N := by
  unfold B2; exact Pipeline.withArrays_arr spec1 launch1.win.arr_inj c _ _ w
theorem B2_of_ne (c : Dev nD) (b : Ref sig .tc) (hb : ∀ w, Pipeline.arrRef spec1 w ≠ b) :
    B2 m c (Proc.devRef .tc b) = B1 m c (Proc.devRef .tc b) := by
  unfold B2; exact Pipeline.withArrays_of_ne spec1 c _ _ b hb
abbrev C2 : (c : Dev nD) → (b : Ref sig .tc) → Buf (Elt F) ((c : Thread nD τ).loc b) := fun c b => B2 m c b
theorem hF1 (c : Dev nD) (w : Fin cfg1.W) : (dat1 (C1 m) c).arrAt w cfg1.N = C2 m c (Pipeline.arrRef spec1 w) :=
  (B2_arr m c w).symm
theorem hrest1 (c : Dev nD) : ∀ b, b ∉ Finset.univ.image (Pipeline.arrRef spec1) → C2 m c b = C1 m c b :=
  fun b hb => B2_of_ne m c b fun w e => hb (Finset.mem_image.mpr ⟨w, Finset.mem_univ _, e⟩)

/-- After the host's broadcast: the end. -/
abbrev B3 : Dev nD → Valuation τ sig (Elt F) := fun c => StableHlo.after hostOps2 (B2 m c)

/-! ## The proof data family and the thread state -/

abbrev adm : (p : Fin 2) → (pcfgs (F := F) p).Adm := fun p => (cfgs p).toPCfg_adm

def pdats : (p : Fin 2) → (c : Dev nD) → Dat τ (Elt F) Unit ℕ (UR sig nD τ) ℕ (Pipeline.pin (pcfgs (F := F)) adm p) c
  | ⟨0, _⟩ => fun c => dat0 (C0 m) c
  | ⟨1, _⟩ => fun c => dat1 (C1 m) c

abbrev 𝒱₀ : Variants := Variants.none
abbrev L : GSem nD τ sig → Finset Unit := fun _ => ∅
abbrev lv : GSem nD τ sig → Unit → ℕ := fun _ _ => 0

/-- What rides beside the buffers through every segment: the generator register at some state, nothing owed. -/
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps2_fresh : (hostOps2 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`. -/
abbrev Tₙ (c : Dev nD) : sProp 𝕄 := iprop(StableHlo.held (c : Thread nD τ) (Pipeline.ucRefs τ sig) (B3 m c) ∗ ∃ r, prngReg c r)

/-! ## The regions as segments -/

set_option backward.isDefEq.respectTransparency.types false in
/-- The running-sum region: entered from every unscoped buffer at launch contents, left at `B1`. Its arrays are split
    out of the unscoped buffers and put back at the exit contents; the generator register goes into the region's
    invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (C0 m) c).loose
  hwaits := Pipeline.hwaits_of_owed_zero _ _ _ _ L lv 0 fun _ _ => rfl
  pre c := iprop(StableHlo.held (c : Thread nD τ) (Pipeline.ucRefs τ sig) (B0 m c) ∗ R c)
  post c := iprop(StableHlo.held (c : Thread nD τ) (Pipeline.ucRefs τ sig) (B1 m c) ∗ R c)
  X c := iprop(∃ r, prngReg c r)
  Y c := iprop(∃ r, prngReg c r)
  Z c := Pipeline.unscopedRest (Ix := Unit) (Name := ℕ) (U := UR sig nD τ) (Lvl := ℕ) spec0 c (C0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (C0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (C0 m) c).Φ 0 from rfl]
    refine .trans ?_ (hin0 (C0 m) c)
    unfold Pipeline.ΦA
    iintro ⟨Hp, -, Hr⟩
    isplitl [Hr]; · iexact Hr
    iexact Hp
  hout c := by
    rw [Pipeline.ownSems0_none, show (pdats m 0 c).Φ (Fin.last _) = (dat0 (C0 m) c).Φ (Fin.last cfg0.N) from rfl]
    refine (hout0 (C0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (C0 m c) (C1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The two-products region: entered from `B1`, left at `B2`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (C1 m) c).loose
  hwaits := Pipeline.hwaits_of_owed_zero _ _ _ _ L lv 1 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec1 c (C1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (C1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (C1 m c) (C2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m),
    .region (reg1 m),
    .host (hseg hostOps2 hostOps2_sub hostOps2_fresh (B2 m)) ]

theorem main_run (c : Dev nD) : main (F := F) c = Pipeline.Seg.run (segs m) := (main_chain c).trans (by chain_rfl)

set_option backward.isDefEq.respectTransparency.types false in
/-- THE RUN: from any memory with zero counters every weakly fair execution of @main terminates, nothing faults,
    and every unscoped buffer ends at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = B3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun c =>
      (show iprop(StableHlo.held (c : Thread nD τ) (Pipeline.ucRefs τ sig) (B3 m c) ∗ R c)
          ⊢ iprop(Tₙ m c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B3 m c b)
    (hfin := fun c s' => by
      iintro ⟨⟨Hh, -⟩, HSI⟩
      unfold StableHlo.held
      imodintro
      iapply (pointsTo_read_all (Pipeline.ucRefs τ sig) (fun b => (((c : Thread nD τ)).1, b)) (B3 m c) s')
      isplitl [Hh] <;> iassumption)
    (hQ := fun s h c => h c)

end Cert.KernelIdeal.Hand
end
-- ==== Proof.KernelIdeal.Arrays.lean ====
/-
  What the two regions leave in their output arrays, as functions of the buffers they were entered with.
  Every window of the second region, and the output window of the first, is the whole array (one block at block
  index zero), so a read through such a block is a read of the array. The first region's input window at point
  `t` is the block of the two batch entries `2t` and `2t + 1`. The first region writes its output back once, after
  the last point: the array ends at what the accumulator holds then. The second region's output array ends at the
  double product of its two input arrays.
-/
import proofs.«147865_j20615843021260_1_alg».proof.Proof.Gen.KernelIdeal.Launch
import proofs.«147865_j20615843021260_1_alg».proof.Proof.Gen.KernelIdeal.Skeleton
import proofs.«147865_j20615843021260_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«147865_j20615843021260_1_alg».proof.Proof.KernelIdeal.Run
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

section Arrays

variable (V : (c : Dev nD) → (b : Ref sig .tc) → Buf (Elt F) ((c : Thread nD τ).loc b))

/-! ## The second region: every block is its whole array -/

theorem idx1 : ∀ t : Fin cfg1.N, win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

theorem read_blk1_0 (X : S130x128.Idx → Elt F .f32) (t : Fin cfg1.N) : ((cfg1.win 0).blk t).view.read (Elt F) X = X := by
  obtain ⟨e0, e1, -, -, -, -⟩ := idx1 t
  funext y
  rw [View.read_apply]
  show X (((cfg1.win 0).blk t).view.emb y) = X y
  refine congrArg X (funext fun a => Fin.ext ?_)
  match a with
  | ⟨0, _⟩ => show win1_0.index t (0 : Fin 2) * 130 + 1 * (y 0).val = (y 0).val; omega
  | ⟨1, _⟩ => show win1_0.index t (1 : Fin 2) * 128 + 1 * (y 1).val = (y 1).val; omega

theorem read_blk1_1 (X : S128x128.Idx → Elt F .f32) (t : Fin cfg1.N) : ((cfg1.win 1).blk t).view.read (Elt F) X = X := by
  obtain ⟨-, -, e0, e1, -, -⟩ := idx1 t
  funext y
  rw [View.read_apply]
  show X (((cfg1.win 1).blk t).view.emb y) = X y
  refine congrArg X (funext fun a => Fin.ext ?_)
  match a with
  | ⟨0, _⟩ => show win1_1.index t (0 : Fin 2) * 128 + 1 * (y 0).val = (y 0).val; omega
  | ⟨1, _⟩ => show win1_1.index t (1 : Fin 2) * 128 + 1 * (y 1).val = (y 1).val; omega

theorem read_blk1_2 (X : S130x130.Idx → Elt F .f32) (t : Fin cfg1.N) : ((cfg1.win 2).blk t).view.read (Elt F) X = X := by
  obtain ⟨-, -, -, -, e0, e1⟩ := idx1 t
  funext y
  rw [View.read_apply]
  show X (((cfg1.win 2).blk t).view.emb y) = X y
  refine congrArg X (funext fun a => Fin.ext ?_)
  match a with
  | ⟨0, _⟩ => show win1_2.index t (0 : Fin 2) * 130 + 1 * (y 0).val = (y 0).val; omega
  | ⟨1, _⟩ => show win1_2.index t (1 : Fin 2) * 130 + 1 * (y 1).val = (y 1).val; omega

theorem iblk1_0 (c : Dev nD) (t : Fin cfg1.N) : iblk1 V c 0 t = V c main_arg1 := by
  unfold iblk1; exact read_blk1_0 _ t
theorem iblk1_1 (c : Dev nD) (t : Fin cfg1.N) : iblk1 V c 1 t = V c main_v0 := by
  unfold iblk1; exact read_blk1_1 _ t

theorem mem_blk1_2 (t : Fin cfg1.N) (i : S130x130.Idx) : i ∈ ((cfg1.win 2).blk t).view.set := by
  obtain ⟨-, -, -, -, e0, e1⟩ := idx1 t
  show i ∈ ((View.whole main_v1).slice (win1_2.rect t)).set
  rw [View.set_slice_whole, Rect.mem_set_unit]
  intro a
  match a with
  | ⟨0, _⟩ =>
    show win1_2.index t (0 : Fin 2) * 130 ≤ (i 0).val ∧ (i 0).val < win1_2.index t (0 : Fin 2) * 130 + 130
    have : (i 0).val < 130 := (i 0).isLt; omega
  | ⟨1, _⟩ =>
    show win1_2.index t (1 : Fin 2) * 130 ≤ (i 1).val ∧ (i 1).val < win1_2.index t (1 : Fin 2) * 130 + 130
    have : (i 1).val < 130 := (i 1).isLt; omega

/-- The second region's output array after the region: the double product of its two input arrays. -/
theorem final1 (c : Dev nD) : (dat1 V c).arrAt 2 cfg1.N = k1_pay1 (V c main_arg1) (V c main_v0) := by
  refine (dat1 V c).arrAt_eq_of_cover 2 _ (fun t _ => ?_) (fun i => ⟨t1_0, flush1_2 t1_0, mem_blk1_2 t1_0 i⟩)
  show (cfg1.win 2).cut (grid1.coords t) ((dat1 V c).after 2 t) = _
  rw [after1_2, iblk1_0, iblk1_1, read_blk1_2]
  rfl

/-! ## The first region -/

theorem idx0 : ∀ t : Fin cfg0.N, win0_0.index t (0 : Fin 4) = t.val ∧ win0_0.index t (1 : Fin 4) = 0
    ∧ win0_0.index t (2 : Fin 4) = 0 ∧ win0_0.index t (3 : Fin 4) = 0
    ∧ win0_1.index t (0 : Fin 2) = 0 ∧ win0_1.index t (1 : Fin 2) = 0 :=
  (by decide +kernel : ∀ t : Fin grid0.N, _)

/-- The input block at point `t` holds the batch entries `2t` and `2t + 1` of the input array. -/
theorem iblk0_apply (c : Dev nD) (t : Fin cfg0.N) (b : Fin 2) (p q : Fin 128) (ch : Fin 16) (B : Fin 512)
    (hB : B.val = 2 * t.val + b.val) :
    iblk0 V c 0 t (ix4 b p q ch) = V c main_arg0 (ix4 B p q ch) := by
  obtain ⟨e0, e1, e2, e3, -, -⟩ := idx0 t
  unfold iblk0
  rw [View.read_apply]
  show V c main_arg0 (((cfg0.win 0).blk t).view.emb (ix4 b p q ch)) = V c main_arg0 (ix4 B p q ch)
  refine congrArg (V c main_arg0) (funext fun a => Fin.ext ?_)
  match a with
  | ⟨0, _⟩ => show win0_0.index t (0 : Fin 4) * 2 + 1 * b.val = B.val; omega
  | ⟨1, _⟩ => show win0_0.index t (1 : Fin 4) * 128 + 1 * p.val = p.val; omega
  | ⟨2, _⟩ => show win0_0.index t (2 : Fin 4) * 128 + 1 * q.val = q.val; omega
  | ⟨3, _⟩ => show win0_0.index t (3 : Fin 4) * 16 + 1 * ch.val = ch.val; omega

theorem read_blk0_1 (X : S128x128.Idx → Elt F .f32) (t : Fin cfg0.N) : ((cfg0.win 1).blk t).view.read (Elt F) X = X := by
  obtain ⟨-, -, -, -, e0, e1⟩ := idx0 t
  funext y
  rw [View.read_apply]
  show X (((cfg0.win 1).blk t).view.emb y) = X y
  refine congrArg X (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

theorem mem_blk0_1 (t : Fin cfg0.N) (i : S128x128.Idx) : i ∈ ((cfg0.win 1).blk t).view.set := by
  obtain ⟨-, -, -, -, e0, e1⟩ := idx0 t
  show i ∈ ((View.whole main_v0).slice (win0_1.rect t)).set
  rw [View.set_slice_whole, Rect.mem_set_unit]
  intro a
  match a with
  | ⟨0, _⟩ =>
    show win0_1.index t (0 : Fin 2) * 128 ≤ (i 0).val ∧ (i 0).val < win0_1.index t (0 : Fin 2) * 128 + 128
    have : (i 0).val < 128 := (i 0).isLt; omega
  | ⟨1, _⟩ =>
    show win0_1.index t (1 : Fin 2) * 128 ≤ (i 1).val ∧ (i 1).val < win0_1.index t (1 : Fin 2) * 128 + 128
    have : (i 1).val < 128 := (i 1).isLt; omega

theorem lastPt_lt : 255 < cfg0.N := by rw [show cfg0.N = 256 from N_0]; decide

/-- The first region's output array after the region: what the accumulator holds after the last point. -/
theorem final0 (c : Dev nD) : (dat0 V c).arrAt 1 cfg0.N = accAt V c 255 lastPt_lt := by
  refine (dat0 V c).arrAt_eq_of_cover 1 _ (fun t hf => ?_)
    (fun i => ⟨⟨255, lastPt_lt⟩, (flush0_1 ⟨255, lastPt_lt⟩).mpr (by decide), mem_blk0_1 _ i⟩)
  have ht : t.val = 255 := by
    have h := (flush0_1 t).mp hf
    have hN : t.val < 256 := lt_of_lt_of_eq t.isLt N_0
    omega
  obtain ⟨n, hn⟩ := t
  dsimp only at ht
  subst ht
  show (cfg0.win 1).cut (grid0.coords ⟨255, hn⟩) ((dat0 V c).after 1 ⟨255, hn⟩) = _
  rw [after0_1, read_blk0_1]
  rfl

end Arrays

end Cert.KernelIdeal.Hand
end
-- ==== Proof.KernelIdeal.Ends.lean ====
/-
  What the run ends with, buffer by buffer: each argument array as launched (no host operation writes one; a region
  only reads it through an input window or leaves it alone), and the result as the host's broadcast of the second
  region's double product, taken of the second argument and of what the first region's accumulator held after its
  last point. Then the frame claim: the program terminates without a fault and its arguments end unchanged.
-/
import proofs.«147865_j20615843021260_1_alg».proof.Proof.Gen.KernelIdeal.Launch
import proofs.«147865_j20615843021260_1_alg».proof.Proof.Gen.KernelIdeal.Skeleton
import proofs.«147865_j20615843021260_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«147865_j20615843021260_1_alg».proof.Proof.KernelIdeal.Arrays

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host's broadcast writes only its own result. -/
theorem B3_of_ne (c : Dev nD) (b : Ref sig .tc) (hb : b ≠ main_v2) :
    B3 m c (Proc.devRef .tc b) = B2 m c (Proc.devRef .tc b) :=
  StableHlo.after_of_forall_not_mem (b := Proc.devRef .tc b) _ _ (List.forall_iff_forall_mem.mp (by
    simp only [hostOps2, List.Forall, StableHlo.unary_writes, Finset.mem_singleton]
    exact StableHlo.devRef_ne_of_ne hb))

theorem B3_main_arg0 (c : Dev nD) : B3 m c (Proc.devRef .tc main_arg0) = m ((c : Thread nD τ).loc main_arg0) :=
  calc B3 m c (Proc.devRef .tc main_arg0)
    _ = B2 m c (Proc.devRef .tc main_arg0) := B3_of_ne m c main_arg0 (by decide)
    _ = B1 m c (Proc.devRef .tc main_arg0) := B2_of_ne m c main_arg0 (by decide)
    _ = B0 m c (Proc.devRef .tc main_arg0) := (B1_arr m c 0).trans (((dat0 (C0 m) c).arrAt_in 0 rfl _).trans (A_eq0 (C0 m) c 0))
    _ = m ((c : Thread nD τ).loc main_arg0) := rfl

theorem B1_main_arg1 (c : Dev nD) : B1 m c (Proc.devRef .tc main_arg1) = m ((c : Thread nD τ).loc main_arg1) :=
  B1_of_ne m c main_arg1 (by decide)

theorem B3_main_arg1 (c : Dev nD) : B3 m c (Proc.devRef .tc main_arg1) = m ((c : Thread nD τ).loc main_arg1) :=
  calc B3 m c (Proc.devRef .tc main_arg1)
    _ = B2 m c (Proc.devRef .tc main_arg1) := B3_of_ne m c main_arg1 (by decide)
    _ = B1 m c (Proc.devRef .tc main_arg1) := (B2_arr m c 0).trans (((dat1 (C1 m) c).arrAt_in 0 rfl _).trans (A_eq1 (C1 m) c 0))
    _ = m ((c : Thread nD τ).loc main_arg1) := B1_main_arg1 m c

/-- What the second region finds in the first region's output array: the accumulator after the last point. -/
theorem B1_main_v0 (c : Dev nD) : B1 m c (Proc.devRef .tc main_v0) = accAt (C0 m) c 255 lastPt_lt :=
  (B1_arr m c 1).trans (final0 (C0 m) c)

/-- The second region's output array after it. -/
theorem B2_main_v1 (c : Dev nD) :
    B2 m c (Proc.devRef .tc main_v1) = k1_pay1 (m ((c : Thread nD τ).loc main_arg1)) (accAt (C0 m) c 255 lastPt_lt) := by
  refine (B2_arr m c 2).trans ((final1 (C1 m) c).trans ?_)
  rw [show C1 m c main_arg1 = m ((c : Thread nD τ).loc main_arg1) from B1_main_arg1 m c,
    show C1 m c main_v0 = accAt (C0 m) c 255 lastPt_lt from B1_main_v0 m c]

/-- The result buffer at the end. -/
theorem B3_main_v2 (c : Dev nD) :
    B3 m c (Proc.devRef .tc main_v2)
      = broadcastInDim S1x130x130x1 ![1, 2] bcast_S130x130_S1x130x130x1_1_2
          (k1_pay1 (m ((c : Thread nD τ).loc main_arg1)) (accAt (C0 m) c 255 lastPt_lt)) := by
  rw [← B2_main_v1 m c]
  show StableHlo.after hostOps2 (B2 m c) (Proc.devRef .tc main_v2) = _
  after_results

/-- THE RUN, READ: the result at its term, the arguments unchanged. -/
theorem run_read : θ_run defs (onTc (τ := τ) (main (F := F))) ⟨m, fun _ => 0, ρ⟩ (fun r => ∀ c : Dev nD,
      r.2.mem ((c.tc : Thread nD τ).loc main_v2)
        = broadcastInDim S1x130x130x1 ![1, 2] bcast_S130x130_S1x130x130x1_1_2
            (k1_pay1 (m ((c : Thread nD τ).loc main_arg1)) (accAt (C0 m) c 255 lastPt_lt))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_v2 (by decide))).trans (B3_main_v2 m c),
     (h c _ (mem_uc main_arg0 (by decide))).trans (B3_main_arg0 m c),
     (h c _ (mem_uc main_arg1 (by decide))).trans (B3_main_arg1 m c)⟩) (run_main m ρ)

/-- THE FRAME: every weakly fair execution terminates, nothing faults, the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_read m ρ)

end Cert.KernelIdeal.Hand
end
-- ==== Proof.SumSpec.lean ====
/-
  The one sum both programs compute, as a function of the input array alone, and the two ways it is grouped.
  For an array `X` of shape 512×128×128×16 and a position (p, q) of the 128×128 result, `total X p q` is the sum of
  `X[B, p, q, ch]` over all 512 batch entries `B` and all 16 channels `ch`.
  * The host's `reduce` over the axes 0 and 3 from the initial value zero is `total` (`hostReduce_apply`): the source
    indices that reduce to (p, q) are exactly the `(B, p, q, ch)`.
  * The kernel sums two batch entries at a time: `tile X t p q` is the sum over the batch entries `2t` and `2t + 1`
    and all channels, and the 256 tiles add up to `total` (`sum_tiles`): the pairs `(t, b)` with `b < 2` number the
    batch entries `2t + b` once each.
  Addition on the extended reals is commutative and associative, which is all either regrouping uses.
-/
import Idealize.ShloMosaic.Lib.ValueIdx
import Idealize.ShloMosaic.PureOps.Ideal.Laws

noncomputable section

namespace Cert.SumSpec

open Idealize.ShloMosaic Idealize.ShloMosaic.ValueIdx
open scoped BigOperators

abbrev SX : Shape := ⟨4, ![512, 128, 128, 16]⟩
abbrev SA : Shape := ⟨2, ![128, 128]⟩

/-- The sum over the batch axis and the channel axis at position (p, q). -/
def total (X : SX.Idx → EReal) (p q : Fin 128) : EReal :=
  ∑ B : Fin 512, ∑ ch : Fin 16, X (ix4 B p q ch)

/-- Batch entry `2t + b` of tile `t`. -/
def batchOf (t : Fin 256) (b : Fin 2) : Fin 512 := ⟨2 * t.val + b.val, by have := t.isLt; have := b.isLt; omega⟩

/-- The sum over the two batch entries of tile `t` and the channel axis at position (p, q). -/
def tile (X : SX.Idx → EReal) (t : Fin 256) (p q : Fin 128) : EReal :=
  ∑ b : Fin 2, ∑ ch : Fin 16, X (ix4 (batchOf t b) p q ch)

/-- The 256 tiles, two batch entries each, are the 512 batch entries once each. -/
theorem sum_tiles (X : SX.Idx → EReal) (p q : Fin 128) : ∑ t : Fin 256, tile X t p q = total X p q := by
  unfold tile total
  rw [← Equiv.sum_comp (finProdFinEquiv : Fin 256 × Fin 2 ≃ Fin 512) (fun B => ∑ ch : Fin 16, X (ix4 B p q ch)),
    Fintype.sum_prod_type]
  refine Finset.sum_congr rfl fun t _ => Finset.sum_congr rfl fun b _ => ?_
  have e : (finProdFinEquiv : Fin 256 × Fin 2 ≃ Fin 512) (t, b) = batchOf t b := Fin.ext (by
    show b.val + 2 * t.val = 2 * t.val + b.val; omega)
  rw [e]

/-- The host's sum over the axes 0 and 3 from zero, at (p, q), is `total`. -/
theorem hostReduce_apply (h' : SX.ReducesTo [0, 3] SA) (X : SX.Idx → EReal) (j : SA.Idx) :
    Ideal.hostReduceAdd h' X 0 j = total X (j 0) (j 1) := by
  have d0 : ∀ i : SX.Idx, (h'.drop i 0 : Nat) = i 1 := fun i => Shape.ReducesTo.drop_apply_val_of_eq h' i 0 1
  have d1 : ∀ i : SX.Idx, (h'.drop i 1 : Nat) = i 2 := fun i => Shape.ReducesTo.drop_apply_val_of_eq h' i 1 2
  unfold Ideal.hostReduceAdd total
  rw [zero_add, ← Fintype.sum_prod_type (f := fun p : Fin 512 × Fin 16 => X (ix4 p.1 (j 0) (j 1) p.2))]
  refine Finset.sum_nbij' (fun i => (i 0, i 3)) (fun p => ix4 p.1 (j 0) (j 1) p.2) ?_ ?_ ?_ ?_ ?_
  · intro i _; exact Finset.mem_univ _
  · intro p _
    refine Finset.mem_filter.mpr ⟨Finset.mem_univ _, funext fun b => Fin.ext ?_⟩
    match b with
    | ⟨0, _⟩ => exact d0 _
    | ⟨1, _⟩ => exact d1 _
  · intro i hi
    have hd := (Finset.mem_filter.mp hi).2
    have e0 : (i 1 : Nat) = j 0 := (d0 i).symm.trans (congrArg (fun k => ((k 0 : SA.Coord 0) : Nat)) hd)
    have e1 : (i 2 : Nat) = j 1 := (d1 i).symm.trans (congrArg (fun k => ((k 1 : SA.Coord 1) : Nat)) hd)
    funext a
    match a with
    | ⟨0, _⟩ => rfl
    | ⟨1, _⟩ => exact Fin.ext e0.symm
    | ⟨2, _⟩ => exact Fin.ext e1.symm
    | ⟨3, _⟩ => rfl
  · intro p _; rfl
  · intro i hi
    have hd := (Finset.mem_filter.mp hi).2
    have e0 : (i 1 : Nat) = j 0 := (d0 i).symm.trans (congrArg (fun k => ((k 0 : SA.Coord 0) : Nat)) hd)
    have e1 : (i 2 : Nat) = j 1 := (d1 i).symm.trans (congrArg (fun k => ((k 1 : SA.Coord 1) : Nat)) hd)
    refine congrArg X (funext fun a => ?_)
    match a with
    | ⟨0, _⟩ => rfl
    | ⟨1, _⟩ => exact Fin.ext e0
    | ⟨2, _⟩ => exact Fin.ext e1
    | ⟨3, _⟩ => rfl

end Cert.SumSpec

end
-- ==== Proof.KernelIdeal.Value.lean ====
/-
  The kernel program's result at the ideal instance, as the reference's term of the same arguments.
  Index by index: the running sum's step adds, at (p, q), the sum of the loaded block over its two batch entries and
  sixteen channels (two one-axis lane sums); so after point `n` the accumulator holds the sum of the tiles
  `0 … n` (induction on the point), after the last point the sum over all batch entries and channels, which is the
  host's sum over the axes 0 and 3 from zero. A matrix product into a zero accumulator is the host's `dot_general`
  (both are the plain sum of products over the contracted axis). Hence the second region's double product, and with
  it the broadcast result, is the reference's.
-/
import proofs.«147865_j20615843021260_1_alg».proof.Proof.Gen.KernelIdeal.Launch
import proofs.«147865_j20615843021260_1_alg».proof.Proof.Gen.KernelIdeal.Skeleton
import proofs.«147865_j20615843021260_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«147865_j20615843021260_1_alg».proof.Proof.KernelIdeal.Ends
import proofs.«147865_j20615843021260_1_alg».proof.Proof.SumSpec
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx Cert.SumSpec

section Value

variable (V : (c : Dev nD) → (b : Ref sig .tc) → Buf (Elt Ideal) ((c : Thread nD τ).loc b))

/-- The block the first point starts from is zero. -/
theorem pay1_apply (j : S128x128.Idx) : k0_pay1 (F := Ideal) j = 0 := by
  show shapeCast S128x128 (broadcast S128x128 (Scalar.ofBits (F := Ideal) .f32 0x00000000#32)) shapeCasts_S128x128_S128x128 j = 0
  rw [shapeCast_self]
  exact Ideal.ofBits_zero_f32

/-- One step of the running sum at (p, q): what was there plus the block's sum over batch entries and channels. -/
theorem pay2_apply (v3 : FVec Ideal S2x128x128x16 .f32) (v6 : FVec Ideal S128x128 .f32) (p q : Fin 128) :
    k0_pay2 v3 v6 (ix2 p q) = v6 (ix2 p q) + ∑ b : Fin 2, ∑ ch : Fin 16, v3 (ix4 b p q ch) := by
  show shapeCast S128x128 (addf v6 (multiReduction .add [0] S128x128
      (multiReduction .add [3] S2x128x128 v3 0x00000000#32 reduces_S2x128x128x16_S2x128x128 (.inl rfl) rfl)
      0x00000000#32 reduces_S2x128x128_S128x128 (.inl rfl) rfl)) shapeCasts_S128x128_S128x128 (ix2 p q) = _
  rw [shapeCast_self]
  refine congrArg (v6 (ix2 p q) + ·) ?_
  refine (Ideal.multiReduction_add_single _ 0x00000000#32 reduces_S2x128x128_S128x128 (.inl rfl) rfl (ix2 p q)).trans ?_
  refine Finset.sum_congr rfl fun b _ => ?_
  refine (Ideal.multiReduction_add_single v3 0x00000000#32 reduces_S2x128x128x16_S2x128x128 (.inl rfl) rfl _).trans ?_
  refine Finset.sum_congr rfl fun ch _ => congrArg v3 (funext fun a => ?_)
  match a with
  | ⟨0, _⟩ => rfl
  | ⟨1, _⟩ => rfl
  | ⟨2, _⟩ => rfl
  | ⟨3, _⟩ => rfl

/-- The input block at point `t`, typed as the vector the body loads. -/
abbrev xblk (c : Dev nD) (t : Fin cfg0.N) : FVec Ideal S2x128x128x16 .f32 := iblk0 V c 0 t

/-- The block's sum at point `t` is the tile's sum of the input array. -/
theorem tile_eq (c : Dev nD) (t : Fin cfg0.N) (T : Fin 256) (hT : T.val = t.val) (p q : Fin 128) :
    ∑ b : Fin 2, ∑ ch : Fin 16, xblk V c t (ix4 b p q ch) = tile (V c main_arg0) T p q := by
  unfold tile
  refine Finset.sum_congr rfl fun b _ => Finset.sum_congr rfl fun ch _ => ?_
  exact iblk0_apply V c t b p q ch (batchOf T b) (by show 2 * T.val + b.val = 2 * t.val + b.val; rw [hT])

theorem pt_lt (n : ℕ) (h : n < cfg0.N) (t : Fin (n + 1)) : t.val < 256 := by
  have := t.isLt; have : cfg0.N = 256 := N_0; omega

/-- After point `n` the accumulator holds, at (p, q), the sum of the tiles `0 … n`. -/
theorem accAt_apply (c : Dev nD) (p q : Fin 128) : ∀ (n : ℕ) (h : n < cfg0.N),
    accAt V c n h (ix2 p q) = ∑ t : Fin (n + 1), tile (V c main_arg0) ⟨t.val, pt_lt n h t⟩ p q
  | 0, h => by
    show k0_pay2 (F := Ideal) (xblk V c ⟨0, h⟩) (k0_pay1 (F := Ideal)) (ix2 p q) = _
    refine (pay2_apply (xblk V c ⟨0, h⟩) _ p q).trans ?_
    rw [pay1_apply, zero_add, Fin.sum_univ_one]
    exact tile_eq V c ⟨0, h⟩ _ rfl p q
  | n + 1, h => by
    show k0_pay2 (F := Ideal) (xblk V c ⟨n + 1, h⟩) (accAt V c n (Nat.lt_of_succ_lt h)) (ix2 p q) = _
    refine (pay2_apply (xblk V c ⟨n + 1, h⟩) _ p q).trans ?_
    rw [accAt_apply c p q n (Nat.lt_of_succ_lt h), Fin.sum_univ_castSucc (n := n + 1)]
    refine congrArg₂ (· + ·) rfl ?_
    exact tile_eq V c ⟨n + 1, h⟩ _ rfl p q

/-- After the last point: the sum over every batch entry and channel. -/
theorem acc_last (c : Dev nD) (p q : Fin 128) :
    accAt V c 255 lastPt_lt (ix2 p q) = total (V c main_arg0) p q := by
  rw [accAt_apply V c p q 255 lastPt_lt]
  exact sum_tiles (V c main_arg0) p q

/-- So the accumulator after the last point is the host's sum over the axes 0 and 3 from zero. -/
theorem acc_eq_hostSum (c : Dev nD) (h' : S512x128x128x16.ReducesTo [0, 3] S128x128) (hu : 0 < (⟨0, ![]⟩ : Shape).numel) :
    accAt V c 255 lastPt_lt
      = Host.reduceAdd (F := Ideal) (φ := .f32) (V c main_arg0) (constant (F := Ideal) ⟨0, ![]⟩ .f32 0x00000000#32) h' hu := by
  funext j
  obtain ⟨p, q, rfl⟩ : ∃ (p q : Fin 128), j = ix2 p q := ⟨j 0, j 1, eq_ix2 j⟩
  rw [acc_last]
  symm
  show Ideal.hostReduceAdd h' (V c main_arg0) (Ideal.ofBits .f32 0x00000000#32) (ix2 p q) = _
  rw [Ideal.ofBits_zero_f32]
  exact hostReduce_apply h' (V c main_arg0) (ix2 p q)

end Value

/-- A matrix product into the zero accumulator is the host's `dot_general`: the same sum of products. -/
theorem matmul_zero_eq_dotGeneral {sl sr so : Shape} (d : DotDims sl sr so) (prec : Option ContractPrecision)
    (l : FVec Ideal sl .f32) (r : FVec Ideal sr .f32) :
    matmul d prec l r (constant (F := Ideal) so .f32 0x00000000#32) = Host.dotGeneral d none l r := by
  funext j
  simp only [matmul, Host.dotGeneral]
  rw [Ideal.matmul_constant_zero_apply, Ideal.dotGeneral_apply]

/-- The second region's double product in the host's spelling. -/
theorem pay_pad_eq (v0 : FVec Ideal S130x128 .f32) (v1 : FVec Ideal S128x128 .f32) :
    k1_pay1 v0 v1
      = Host.dotGeneral dot_S130x128_S128x130_S130x130_1_0_0_1_n_n none
          (Host.dotGeneral dot_S130x128_S128x128_S130x128_1_0_0_1_n_n none v0 v1)
          (transpose S128x130 [1, 0] v0 transposes_S130x128_p1_0_S128x130) := by
  show matmul dot_S130x128_S128x130_S130x130_1_0_0_1_n_n (some .fp32)
      (matmul dot_S130x128_S128x128_S130x128_1_0_0_1_n_n (some .fp32) v0 (shapeCast S128x128 v1 shapeCasts_S128x128_S128x128)
        (constant S130x128 .f32 0x00000000#32))
      (transpose S128x130 [1, 0] v0 transposes_S130x128_p1_0_S128x130) (constant S130x130 .f32 0x00000000#32) = _
  rw [shapeCast_self, matmul_zero_eq_dotGeneral, matmul_zero_eq_dotGeneral]

end Cert.KernelIdeal.Hand
end
-- ==== Proof.lean ====
/-
  The kernel sums a 512×128×128×16 array over its batch and channel axes into a 128×128 matrix `xs` — two batch
  entries per grid point, accumulated over 256 points — and then forms `(pre · xs) · preᵀ` for a 130×128 matrix
  `pre`, broadcast to shape 1×130×130×1; the reference takes the same sum in one `reduce` and the same two products
  with `dot_general`. Over the extended reals the two sums differ only in grouping and order, which addition there
  allows, and a product into a zero accumulator is the plain sum of products on both sides: the results are equal
  index by index, with no use of the inputs' finiteness.
  The three frames: each kernel program terminates without a fault with its arguments unchanged because each of its
  two regions does and the host's broadcast writes only the result; the reference is straight-line host code.
  The idealized kernel is the kernel's own text read at the ideal instance (no rewrite), so `preserves` is trivial.
-/
import proofs.«147865_j20615843021260_1_alg».proof.Defs
import proofs.«147865_j20615843021260_1_alg».proof.Proof.Gen.Kernel
import proofs.«147865_j20615843021260_1_alg».proof.Proof.Gen.KernelIdeal
import proofs.«147865_j20615843021260_1_alg».proof.Proof.Gen.ReferenceIdeal
import proofs.«147865_j20615843021260_1_alg».proof.Proof.Gen.Pre_finite_inputs
import proofs.«147865_j20615843021260_1_alg».proof.Proof.Gen.ReferenceIdeal.Run
import proofs.«147865_j20615843021260_1_alg».proof.Proof.Kernel.Ends
import proofs.«147865_j20615843021260_1_alg».proof.Proof.KernelIdeal.Value
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result at one term of the (agreeing) arguments: the kernel's accumulated sum is the
    host's sum, its products into zero accumulators are the host's products. -/
theorem algebraic : Cert.algebraic_KernelIdeal_ReferenceIdeal := by
  intro m ρ m' ρ' _ hagree
  refine ⟨_, Cert.KernelIdeal.Hand.run_read (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.KernelIdeal.Hand.pay_pad_eq,
    Cert.KernelIdeal.Hand.acc_eq_hostSum (Cert.KernelIdeal.Hand.C0 m) c
      Cert.ReferenceIdeal.Facts₀.reducesTo_S512x128x128x16_S128x128_d0_3 Cert.ReferenceIdeal.Facts₀.h_S_]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
